-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000x3 : Shape := ⟨2, ![100000, 3]⟩
abbrev S100000x16 : Shape := ⟨2, ![100000, 16]⟩
abbrev S134x128 : Shape := ⟨2, ![134, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x3 : S_.BroadcastsInDim S100000x3 (![] : Fin 0 → Fin S100000x3.rank)
  reducesTo_S100000x3_S_d0_1 : S100000x3.ReducesTo [0, 1] S_
  bcast_S_S134x128 : S_.BroadcastsInDim S134x128 (![] : Fin 0 → Fin S134x128.rank)
  reducesTo_S134x128_S_d0_1 : S134x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x64 .f32) (main_arg1 : FVec F S100000x3 .f32) (main_arg2 : IVec S100000x16 32) (main_arg3 : FVec F S134x128 .f32) (main_arg4 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x3 .f32 := Host.absf main_arg1
  let main_cst_0 : FVec F S_ .f32 := constant S_ .f32 0x7F800000#32
  let main_v5 : FVec F S100000x3 .f32 := broadcastInDim S100000x3 ![] bcast_S_S100000x3 main_cst_0
  let main_v6 : IVec S100000x3 1 := cmpf .olt main_v4 main_v5
  let main_c_1 : IVec S_ 1 := constantI S_ 1 1#1
  let main_v7 : IVec S_ 1 := (fun x v => Host.reduce IntOp.andi x v reducesTo_S100000x3_S_d0_1 h_S_) main_v6 main_c_1
  let main_v8 : IVec S_ 1 := andi main_v3 main_v7
  let main_v9 : FVec F S134x128 .f32 := Host.absf main_arg3
  let main_cst_2 : FVec F S_ .f32 := constant S_ .f32 0x7F800000#32
  let main_v10 : FVec F S134x128 .f32 := broadcastInDim S134x128 ![] bcast_S_S134x128 main_cst_2
  let main_v11 : IVec S134x128 1 := cmpf .olt main_v9 main_v10
  let main_c_3 : IVec S_ 1 := constantI S_ 1 1#1
  let main_v12 : IVec S_ 1 := (fun x v => Host.reduce IntOp.andi x v reducesTo_S134x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x64 : Shape := ⟨2, ![100000, 64]⟩
abbrev S100000x3 : Shape := ⟨2, ![100000, 3]⟩
abbrev S100000x16 : Shape := ⟨2, ![100000, 16]⟩
abbrev S134x128 : Shape := ⟨2, ![134, 128]⟩
abbrev S128 : Shape := ⟨1, ![128]⟩
abbrev S_ : Shape := ⟨0, ![]⟩
abbrev S100000x16x1 : Shape := ⟨3, ![100000, 16, 1]⟩
abbrev S100000x16x64 : Shape := ⟨3, ![100000, 16, 64]⟩
abbrev S100000x16x3 : Shape := ⟨3, ![100000, 16, 3]⟩
abbrev S100000x128 : Shape := ⟨2, ![100000, 128]⟩
abbrev S400x64 : Shape := ⟨2, ![400, 64]⟩
abbrev S400x16x64 : Shape := ⟨3, ![400, 16, 64]⟩
abbrev S400x3 : Shape := ⟨2, ![400, 3]⟩
abbrev S400x16x3 : Shape := ⟨3, ![400, 16, 3]⟩
abbrev S400x128 : Shape := ⟨2, ![400, 128]⟩
abbrev S400x1x3 : Shape := ⟨3, ![400, 1, 3]⟩
abbrev S400x134 : Shape := ⟨2, ![400, 134]⟩
abbrev S1x128 : Shape := ⟨2, ![1, 128]⟩

abbrev nBuf : Space → Nat
  | .hbm => 24
  | .vmem => 12
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S100000x16, .i32⟩
  | .hbm, ⟨3, _⟩ => ⟨S134x128, .f32⟩
  | .hbm, ⟨4, _⟩ => ⟨S128, .f32⟩
  | .hbm, ⟨5, _⟩ => ⟨S_, .i32⟩
  | .hbm, ⟨6, _⟩ => ⟨S100000x16, .i32⟩
  | .hbm, ⟨7, _⟩ => ⟨S100000x16, .i1⟩
  | .hbm, ⟨8, _⟩ => ⟨S_, .i32⟩
  | .hbm, ⟨9, _⟩ => ⟨S100000x16, .i32⟩
  | .hbm, ⟨10, _⟩ => ⟨S100000x16, .i32⟩
  | .hbm, ⟨11, _⟩ => ⟨S100000x16, .i32⟩
  | .hbm, ⟨12, _⟩ => ⟨S100000x16x1, .i32⟩
  | .hbm, ⟨13, _⟩ => ⟨S100000x16x64, .f32⟩
  | .hbm, ⟨14, _⟩ => ⟨S_, .i32⟩
  | .hbm, ⟨15, _⟩ => ⟨S100000x16, .i32⟩
  | .hbm, ⟨16, _⟩ => ⟨S100000x16, .i1⟩
  | .hbm, ⟨17, _⟩ => ⟨S_, .i32⟩
  | .hbm, ⟨18, _⟩ => ⟨S100000x16, .i32⟩
  | .hbm, ⟨19, _⟩ => ⟨S100000x16, .i32⟩
  | .hbm, ⟨20, _⟩ => ⟨S100000x16, .i32⟩
  | .hbm, ⟨21, _⟩ => ⟨S100000x16x1, .i32⟩
  | .hbm, ⟨22, _⟩ => ⟨S100000x16x3, .f32⟩
  | .hbm, ⟨23, _⟩ => ⟨S100000x128, .f32⟩
  | .local _ .vmem, ⟨0, _⟩ => ⟨S400x64, .f32⟩
  | .local _ .vmem, ⟨1, _⟩ => ⟨S400x64, .f32⟩
  | .local _ .vmem, ⟨2, _⟩ => ⟨S400x16x64, .f32⟩
  | .local _ .vmem, ⟨3, _⟩ => ⟨S400x16x64, .f32⟩
  | .local _ .vmem, ⟨4, _⟩ => ⟨S400x3, .f32⟩
  | .local _ .vmem, ⟨5, _⟩ => ⟨S400x3, .f32⟩
  | .local _ .vmem, ⟨6, _⟩ => ⟨S400x16x3, .f32⟩
  | .local _ .vmem, ⟨7, _⟩ => ⟨S400x16x3, .f32⟩
  | .local _ .vmem, ⟨8, _⟩ => ⟨S134x128, .f32⟩
  | .local _ .vmem, ⟨9, _⟩ => ⟨S128, .f32⟩
  | .local _ .vmem, ⟨10, _⟩ => ⟨S400x128, .f32⟩
  | .local _ .vmem, ⟨11, _⟩ => ⟨S400x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x16x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x16x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S134x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  inb_S400x64_S400x64_0_0 : ∀ a, (![0, 0] : Fin 2 → Nat) a + S400x64.size a ≤ S400x64.size a
  h_S400x64 : 0 < S400x64.numel
  inb_S400x16x64_S400x16x64_0_0_0 : ∀ a, (![0, 0, 0] : Fin 3 → Nat) a + S400x16x64.size a ≤ S400x16x64.size a
  h_S400x16x64 : 0 < S400x16x64.numel
  shapeCasts_S400x16x64_S400x16x64 : S400x16x64.ShapeCasts S400x16x64
  reduces_S400x16x64_S400x64 : S400x16x64.Reduces [1] S400x64
  inb_S400x3_S400x3_0_0 : ∀ a, (![0, 0] : Fin 2 → Nat) a + S400x3.size a ≤ S400x3.size a
  h_S400x3 : 0 < S400x3.numel
  inb_S400x16x3_S400x16x3_0_0_0 : ∀ a, (![0, 0, 0] : Fin 3 → Nat) a + S400x16x3.size a ≤ S400x16x3.size a
  h_S400x16x3 : 0 < S400x16x3.numel
  shapeCasts_S400x16x3_S400x16x3 : S400x16x3.ShapeCasts S400x16x3
  shapeCasts_S400x3_S400x1x3 : S400x3.ShapeCasts S400x1x3
  broadcasts_S400x1x3_S400x16x3 : S400x1x3.Broadcasts S400x16x3
  reduces_S400x16x3_S400x3 : S400x16x3.Reduces [1] S400x3
  concatenates_S400x64_S400x64_S400x3_S400x3_S400x134_d1 : Shape.Concatenates [S400x64, S400x64, S400x3, S400x3] S400x134 1
  bitsLt_bf16_f32 : FTy.bits .bf16 < FTy.bits .f32
  inb_S134x128_S134x128_0_0 : ∀ a, (![0, 0] : Fin 2 → Nat) a + S134x128.size a ≤ S134x128.size a
  h_S134x128 : 0 < S134x128.numel
  inb_S128_S128_0 : ∀ a, (![0] : Fin 1 → Nat) a + S128.size a ≤ S128.size a
  h_S128 : 0 < S128.numel
  shapeCasts_S128_S1x128 : S128.ShapeCasts S1x128
  broadcasts_S1x128_S400x128 : S1x128.Broadcasts S400x128
  inb_S400x128_S400x128_0_0 : ∀ a, (![0, 0] : Fin 2 → Nat) a + S400x128.size a ≤ S400x128.size a
  h_S400x128 : 0 < S400x128.numel
  gather_S100000x64_S100000x16x1_S100000x16x64_2_0_n_n_0_2_164_wf : GatherDims.WF S100000x64 S100000x16x1 S100000x16x64 [2] [0] [] [0] [] 2 ![1, 64]
  gather_S100000x3_S100000x16x1_S100000x16x3_2_0_n_n_0_2_13_wf : GatherDims.WF S100000x3 S100000x16x1 S100000x16x3 [2] [0] [] [0] [] 2 ![1, 3]
  dot_S400x134_S134x128_S400x128_1_0_0_1_n_n_wf : DotDims.WF S400x134 S134x128 S400x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S100000x64.size a
  hwx0_0 : ∀ i : grid0.Coords, EltTy.bits .f32 = 32 ∨ (Rect.block (s := S100000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x16x64.size a ≤ S100000x16x64.size a
  hwx0_1 : ∀ i : grid0.Coords, EltTy.bits .f32 = 32 ∨ (Rect.block (s := S100000x16x64) S400x16x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x3.size a ≤ S100000x3.size a
  hwx0_2 : ∀ i : grid0.Coords, EltTy.bits .f32 = 32 ∨ (Rect.block (s := S100000x3) S400x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x16x3.size a ≤ S100000x16x3.size a
  hwx0_3 : ∀ i : grid0.Coords, EltTy.bits .f32 = 32 ∨ (Rect.block (s := S100000x16x3) S400x16x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S134x128.size a ≤ S134x128.size a
  hwx0_4 : ∀ i : grid0.Coords, EltTy.bits .f32 = 32 ∨ (Rect.block (s := S134x128) S134x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S100000x128.size a
  hwx0_6 : ∀ i : grid0.Coords, EltTy.bits .f32 = 32 ∨ (Rect.block (s := S100000x128) S400x128.size (cc0_transform_6 i) (hinb0_6 i)).WholeWords (EltTy.packing .f32)

variable [Facts₀]

def gather_S100000x64_S100000x16x1_S100000x16x64_2_0_n_n_0_2_164 : GatherDims S100000x64 S100000x16x1 S100000x16x64 where
  offsetDims := [2]
  collapsedSliceDims := [0]
  operandBatchingDims := []
  startIndicesBatchingDims := []
  startIndexMap := [0]
  indexVectorDim := 2
  sliceSizes := ![1, 64]
  wf := gather_S100000x64_S100000x16x1_S100000x16x64_2_0_n_n_0_2_164_wf
def gather_S100000x3_S100000x16x1_S100000x16x3_2_0_n_n_0_2_13 : GatherDims S100000x3 S100000x16x1 S100000x16x3 where
  offsetDims := [2]
  collapsedSliceDims := [0]
  operandBatchingDims := []
  startIndicesBatchingDims := []
  startIndexMap := [0]
  indexVectorDim := 2
  sliceSizes := ![1, 3]
  wf := gather_S100000x3_S100000x16x1_S100000x16x3_2_0_n_n_0_2_13_wf
def dot_S400x134_S134x128_S400x128_1_0_0_1_n_n : DotDims S400x134 S134x128 S400x128 where
  lhsContracting := [1]
  rhsContracting := [0]
  lhsNonContracting := [0]
  rhsNonContracting := [1]
  lhsBatch := []
  rhsBatch := []
  wf := dot_S400x134_S134x128_S400x128_1_0_0_1_n_n_wf

abbrev win0_0 : Pipeline.Window sig grid0 :=
  Pipeline.Window.ofSpec (Memref.whole main_arg0) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S400x16x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S400x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13) S400x16x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S134x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S100000x3 : Shape := ⟨2, ![100000, 3]⟩
abbrev S100000x16 : Shape := ⟨2, ![100000, 16]⟩
abbrev S134x128 : Shape := ⟨2, ![134, 128]⟩
abbrev S128 : Shape := ⟨1, ![128]⟩
abbrev S_ : Shape := ⟨0, ![]⟩
abbrev S100000x16x1 : Shape := ⟨3, ![100000, 16, 1]⟩
abbrev S100000x16x64 : Shape := ⟨3, ![100000, 16, 64]⟩
abbrev S100000x16x3 : Shape := ⟨3, ![100000, 16, 3]⟩
abbrev S100000x1x3 : Shape := ⟨3, ![100000, 1, 3]⟩
abbrev S100000x134 : Shape := ⟨2, ![100000, 134]⟩
abbrev S100000x128 : Shape := ⟨2, ![100000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x3, .f32⟩
  | .hbm, ⟨2, _⟩ => ⟨S100000x16, .i32⟩
  | .hbm, ⟨3, _⟩ => ⟨S134x128, .f32⟩
  | .hbm, ⟨4, _⟩ => ⟨S128, .f32⟩
  | .hbm, ⟨5, _⟩ => ⟨S_, .i32⟩
  | .hbm, ⟨6, _⟩ => ⟨S100000x16, .i32⟩
  | .hbm, ⟨7, _⟩ => ⟨S100000x16, .i1⟩
  | .hbm, ⟨8, _⟩ => ⟨S_, .i32⟩
  | .hbm, ⟨9, _⟩ => ⟨S100000x16, .i32⟩
  | .hbm, ⟨10, _⟩ => ⟨S100000x16, .i32⟩
  | .hbm, ⟨11, _⟩ => ⟨S100000x16, .i32⟩
  | .hbm, ⟨12, _⟩ => ⟨S100000x16x1, .i32⟩
  | .hbm, ⟨13, _⟩ => ⟨S100000x16x64, .f32⟩
  | .hbm, ⟨14, _⟩ => ⟨S_, .f32⟩
  | .hbm, ⟨15, _⟩ => ⟨S100000x64, .f32⟩
  | .hbm, ⟨16, _⟩ => ⟨S_, .f32⟩
  | .hbm, ⟨17, _⟩ => ⟨S100000x64, .f32⟩
  | .hbm, ⟨18, _⟩ => ⟨S100000x64, .f32⟩
  | .hbm, ⟨19, _⟩ => ⟨S_, .i32⟩
  | .hbm, ⟨20, _⟩ => ⟨S100000x16, .i32⟩
  | .hbm, ⟨21, _⟩ => ⟨S100000x16, .i1⟩
  | .hbm, ⟨22, _⟩ => ⟨S_, .i32⟩
  | .hbm, ⟨23, _⟩ => ⟨S100000x16, .i32⟩
  | .hbm, ⟨24, _⟩ => ⟨S100000x16, .i32⟩
  | .hbm, ⟨25, _⟩ => ⟨S100000x16, .i32⟩
  | .hbm, ⟨26, _⟩ => ⟨S100000x16x1, .i32⟩
  | .hbm, ⟨27, _⟩ => ⟨S100000x16x3, .f32⟩
  | .hbm, ⟨28, _⟩ => ⟨S100000x1x3, .f32⟩
  | .hbm, ⟨29, _⟩ => ⟨S100000x16x3, .f32⟩
  | .hbm, ⟨30, _⟩ => ⟨S100000x16x3, .f32⟩
  | .hbm, ⟨31, _⟩ => ⟨S_, .f32⟩
  | .hbm, ⟨32, _⟩ => ⟨S100000x3, .f32⟩
  | .hbm, ⟨33, _⟩ => ⟨S_, .f32⟩
  | .hbm, ⟨34, _⟩ => ⟨S100000x3, .f32⟩
  | .hbm, ⟨35, _⟩ => ⟨S100000x3, .f32⟩
  | .hbm, ⟨36, _⟩ => ⟨S_, .i32⟩
  | .hbm, ⟨37, _⟩ => ⟨S_, .f32⟩
  | .hbm, ⟨38, _⟩ => ⟨S100000x3, .f32⟩
  | .hbm, ⟨39, _⟩ => ⟨S100000x1x3, .f32⟩
  | .hbm, ⟨40, _⟩ => ⟨S_, .f32⟩
  | .hbm, ⟨41, _⟩ => ⟨S100000x1x3, .f32⟩
  | .hbm, ⟨42, _⟩ => ⟨S100000x1x3, .f32⟩
  | .hbm, ⟨43, _⟩ => ⟨S100000x16x3, .f32⟩
  | .hbm, ⟨44, _⟩ => ⟨S100000x16x3, .f32⟩
  | .hbm, ⟨45, _⟩ => ⟨S100000x16x3, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S100000x3, .f32⟩
  | .hbm, ⟨51, _⟩ => ⟨S100000x3, .f32⟩
  | .hbm, ⟨52, _⟩ => ⟨S100000x3, .f32⟩
  | .hbm, ⟨53, _⟩ => ⟨S_, .f32⟩
  | .hbm, ⟨54, _⟩ => ⟨S_, .i1⟩
  | .hbm, ⟨55, _⟩ => ⟨S_, .f32⟩
  | .hbm, ⟨56, _⟩ => ⟨S_, .f32⟩
  | .hbm, ⟨57, _⟩ => ⟨S100000x3, .f32⟩
  | .hbm, ⟨58, _⟩ => ⟨S100000x3, .f32⟩
  | .hbm, ⟨59, _⟩ => ⟨S100000x3, .f32⟩
  | .hbm, ⟨60, _⟩ => ⟨S100000x134, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S100000x128, .f32⟩
  | .hbm, ⟨72, _⟩ => ⟨S100000x128, .f32⟩
  | .hbm, ⟨73, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_c_6 : Ref sig .tc := ⟨.hbm, 36, rfl⟩
abbrev main_call0_call0_cst : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_call0_cst_0 : Ref sig .tc := ⟨.hbm, 40, rfl⟩
abbrev main_call0_call0_v2 : Ref sig .tc := ⟨.hbm, 41, rfl⟩
abbrev main_call0_call0_v3 : Ref sig .tc := ⟨.hbm, 42, rfl⟩
abbrev main_call0_call0_v4 : Ref sig .tc := ⟨.hbm, 43, rfl⟩
abbrev main_call0_call0_v5 : Ref sig .tc := ⟨.hbm, 44, rfl⟩
abbrev main_call0_call0_v6 : Ref sig .tc := ⟨.hbm, 45, rfl⟩
abbrev main_call0_call0_v7 : Ref sig .tc := ⟨.hbm, 46, rfl⟩
abbrev main_call0_call0_cst_1 : Ref sig .tc := ⟨.hbm, 47, rfl⟩
abbrev main_call0_call0_v8 : Ref sig .tc := ⟨.hbm, 48, rfl⟩
abbrev main_call0_call0_cst_2 : Ref sig .tc := ⟨.hbm, 49, rfl⟩
abbrev main_call0_call0_v9 : Ref sig .tc := ⟨.hbm, 50, rfl⟩
abbrev main_call0_call0_v10 : Ref sig .tc := ⟨.hbm, 51, rfl⟩
abbrev main_call0_call0_v11 : Ref sig .tc := ⟨.hbm, 52, rfl⟩
abbrev main_call0_call0_cst_3 : Ref sig .tc := ⟨.hbm, 53, rfl⟩
abbrev main_call0_call0_v12 : Ref sig .tc := ⟨.hbm, 54, rfl⟩
abbrev main_call0_call0_cst_4 : Ref sig .tc := ⟨.hbm, 55, rfl⟩
abbrev main_call0_call0_call0_v0 : Ref sig .tc := ⟨.hbm, 56, rfl⟩
abbrev main_call0_call0_call0_v1 : Ref sig .tc := ⟨.hbm, 57, rfl⟩
abbrev main_call0_v0 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v29 : Ref sig .tc := ⟨.hbm, 73, rfl⟩

abbrev nD : Nat := 1
abbrev τ : Topo := Topo.v7x

variable {F : FTy → Type} [FloatOps F]

class Facts₀ : Prop where
  bcast_S_S100000x16 : S_.BroadcastsInDim S100000x16 (![] : Fin 0 → Fin S100000x16.rank)
  bcast_S100000x16_S100000x16x1_0_1 : S100000x16.BroadcastsInDim S100000x16x1 (![0, 1] : Fin 2 → Fin S100000x16x1.rank)
  reducesTo_S100000x16x64_S100000x64_d1 : S100000x16x64.ReducesTo [1] S100000x64
  h_S_ : 0 < S_.numel
  bcast_S_S100000x64 : S_.BroadcastsInDim S100000x64 (![] : Fin 0 → Fin S100000x64.rank)
  bcast_S100000x3_S100000x1x3_0_2 : S100000x3.BroadcastsInDim S100000x1x3 (![0, 2] : Fin 2 → Fin S100000x1x3.rank)
  bcast_S100000x1x3_S100000x16x3_0_1_2 : S100000x1x3.BroadcastsInDim S100000x16x3 (![0, 1, 2] : Fin 3 → Fin S100000x16x3.rank)
  reducesTo_S100000x16x3_S100000x3_d1 : S100000x16x3.ReducesTo [1] S100000x3
  bcast_S_S100000x3 : S_.BroadcastsInDim S100000x3 (![] : Fin 0 → Fin S100000x3.rank)
  bcast_S_S100000x1x3 : S_.BroadcastsInDim S100000x1x3 (![] : Fin 0 → Fin S100000x1x3.rank)
  concatenates_S100000x64_S100000x64_S100000x3_S100000x3_S100000x134_d1 : Shape.Concatenates [S100000x64, S100000x64, S100000x3, S100000x3] S100000x134 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  gather_S100000x64_S100000x16x1_S100000x16x64_2_0_n_n_0_2_164_wf : GatherDims.WF S100000x64 S100000x16x1 S100000x16x64 [2] [0] [] [0] [] 2 ![1, 64]
  gather_S100000x3_S100000x16x1_S100000x16x3_2_0_n_n_0_2_13_wf : GatherDims.WF S100000x3 S100000x16x1 S100000x16x3 [2] [0] [] [0] [] 2 ![1, 3]
  dot_S100000x134_S134x128_S100000x128_1_0_0_1_n_n_wf : DotDims.WF S100000x134 S134x128 S100000x128 [1] [0] [0] [1] [] []

variable [Facts₀]

def gather_S100000x64_S100000x16x1_S100000x16x64_2_0_n_n_0_2_164 : GatherDims S100000x64 S100000x16x1 S100000x16x64 where
  offsetDims := [2]
  collapsedSliceDims := [0]
  operandBatchingDims := []
  startIndicesBatchingDims := []
  startIndexMap := [0]
  indexVectorDim := 2
  sliceSizes := ![1, 64]
  wf := gather_S100000x64_S100000x16x1_S100000x16x64_2_0_n_n_0_2_164_wf
def gather_S100000x3_S100000x16x1_S100000x16x3_2_0_n_n_0_2_13 : GatherDims S100000x3 S100000x16x1 S100000x16x3 where
  offsetDims := [2]
  collapsedSliceDims := [0]
  operandBatchingDims := []
  startIndicesBatchingDims := []
  startIndexMap := [0]
  indexVectorDim := 2
  sliceSizes := ![1, 3]
  wf := gather_S100000x3_S100000x16x1_S100000x16x3_2_0_n_n_0_2_13_wf
def dot_S100000x134_S134x128_S100000x128_1_0_0_1_n_n : DotDims S100000x134 S134x128 S100000x128 where
  lhsContracting := [1]
  rhsContracting := [0]
  lhsNonContracting := [0]
  rhsNonContracting := [1]
  lhsBatch := []
  rhsBatch := []
  wf := dot_S100000x134_S134x128_S100000x128_1_0_0_1_n_n_wf

class Facts : Prop extends Facts₀ where

variable [Facts]
-- ==== Proof.Spec.lean ====
/-
  One graph-convolution layer, row by row, on the extended reals.

  For a node r with feature row x_r (64 entries), sixteen neighbour feature rows n_{r,k} and sixteen neighbour
  positions p_{r,k} around its own position p_r (3 entries each):
    agg_r      = (sum_k n_{r,k}) / 16                      the neighbours' mean feature
    rel_{r,k}  = p_{r,k} - p_r                             the relative positions
    mean_r     = (sum_k rel_{r,k}) / 16
    std_r      = sqrt ((sum_k (rel_{r,k} - mean_r)^2) / 16)   the population standard deviation
    mix_r      = x_r ++ agg_r ++ mean_r ++ std_r           134 entries
    lin_{r,c}  = (sum_j mix_{r,j} * W_{j,c}) + b_c
    out_{r,c}  = lin_{r,c} * logistic lin_{r,c}            SiLU
  Every quantity of row r reads row r of the arrays only (rows_congr): this is what lets a block of 400 rows be
  computed by itself. The arrays have R rows, R a parameter, so that the same text speaks of a block and of the
  whole table. Beside the definitions: the two float literals the programs spell (16, 1), and how three vector
  operations read at an index whatever the number of rows: a sum over the middle axis, a row repeated along a new
  middle axis, and four pieces laid side by side along the last axis.
-/
import Idealize.ShloMosaic.PureOps.Ideal
import Idealize.ShloMosaic.PureOps.Ideal.Laws
import Idealize.ShloMosaic.Lib.ValueIdx
import Idealize.ShloMosaic.Lib.Pipeline.Value

noncomputable section

namespace Cert.GraphConv

open Idealize.ShloMosaic Idealize.ShloMosaic.ValueIdx

/-! ## The literals -/

/-- The pattern of 16.0 denotes the real 16. -/
theorem ofBits_sixteen : Ideal.ofBits .f32 0x41800000#32 = ((16 : ℝ) : EReal) := by
  simp [Ideal.ofBits, Ideal.ieee, -EReal.coe_mul]; norm_num

/-- The pattern of 1.0 denotes 1. -/
theorem ofBits_one : Ideal.ofBits .f32 0x3F800000#32 = 1 := by
  simp [Ideal.ofBits, Ideal.ieee, -EReal.coe_mul]; norm_num

/-- The divisor of every mean here: the literal 16.0. -/
abbrev sixteen : EReal := Ideal.ofBits .f32 0x41800000#32

/-! ## The layer, one row at a time -/

section Rows
variable {R : Nat}

/-- The mean over the sixteen neighbours of feature column c. -/
def agg (nbr : (⟨3, ![R, 16, 64]⟩ : Shape).Idx → EReal) (r : Fin R) (c : Fin 64) : EReal :=
  Ideal.div (∑ k : Fin 16, nbr (ix3 r k c)) sixteen

/-- Neighbour k's position relative to the node's own, coordinate d. -/
def rel (coords : (⟨2, ![R, 3]⟩ : Shape).Idx → EReal) (nbrc : (⟨3, ![R, 16, 3]⟩ : Shape).Idx → EReal)
    (r : Fin R) (k : Fin 16) (d : Fin 3) : EReal :=
  nbrc (ix3 r k d) - coords (ix2 r d)

/-- The mean relative position. -/
def relMean (coords : (⟨2, ![R, 3]⟩ : Shape).Idx → EReal) (nbrc : (⟨3, ![R, 16, 3]⟩ : Shape).Idx → EReal)
    (r : Fin R) (d : Fin 3) : EReal :=
  Ideal.div (∑ k : Fin 16, rel coords nbrc r k d) sixteen

/-- The population standard deviation of the relative positions. -/
def relStd (coords : (⟨2, ![R, 3]⟩ : Shape).Idx → EReal) (nbrc : (⟨3, ![R, 16, 3]⟩ : Shape).Idx → EReal)
    (r : Fin R) (d : Fin 3) : EReal :=
  Ideal.sqrt (Ideal.div (∑ k : Fin 16, (rel coords nbrc r k d - relMean coords nbrc r d)
    * (rel coords nbrc r k d - relMean coords nbrc r d)) sixteen)

/-- Four rows of 64, 64, 3 and 3 entries laid end to end, read at position j of the 134. -/
def pick (x0 x1 : Fin 64 → EReal) (x2 x3 : Fin 3 → EReal) (j : Fin 134) : EReal :=
  if h0 : j.val < 64 then x0 ⟨j.val, h0⟩
  else if h1 : j.val < 128 then x1 ⟨j.val - 64, by omega⟩
  else if h2 : j.val < 131 then x2 ⟨j.val - 128, by omega⟩
  else x3 ⟨j.val - 131, by have := j.isLt; omega⟩

/-- The layer's input row: own features, mean neighbour features, mean and deviation of the relative positions. -/
def mix (feat : (⟨2, ![R, 64]⟩ : Shape).Idx → EReal) (nbr : (⟨3, ![R, 16, 64]⟩ : Shape).Idx → EReal)
    (coords : (⟨2, ![R, 3]⟩ : Shape).Idx → EReal) (nbrc : (⟨3, ![R, 16, 3]⟩ : Shape).Idx → EReal)
    (r : Fin R) (j : Fin 134) : EReal :=
  pick (fun q => feat (ix2 r q)) (agg nbr r) (relMean coords nbrc r) (relStd coords nbrc r) j

/-- The dense layer before its activation. -/
def lin (feat : (⟨2, ![R, 64]⟩ : Shape).Idx → EReal) (nbr : (⟨3, ![R, 16, 64]⟩ : Shape).Idx → EReal)
    (coords : (⟨2, ![R, 3]⟩ : Shape).Idx → EReal) (nbrc : (⟨3, ![R, 16, 3]⟩ : Shape).Idx → EReal)
    (W : (⟨2, ![134, 128]⟩ : Shape).Idx → EReal) (b : (⟨1, ![128]⟩ : Shape).Idx → EReal)
    (r : Fin R) (c : Fin 128) : EReal :=
  (∑ j : Fin 134, mix feat nbr coords nbrc r j * W (ix2 j c)) + b (ix1 c)

/-- The layer's output: SiLU of the dense layer. -/
def out (feat : (⟨2, ![R, 64]⟩ : Shape).Idx → EReal) (nbr : (⟨3, ![R, 16, 64]⟩ : Shape).Idx → EReal)
    (coords : (⟨2, ![R, 3]⟩ : Shape).Idx → EReal) (nbrc : (⟨3, ![R, 16, 3]⟩ : Shape).Idx → EReal)
    (W : (⟨2, ![134, 128]⟩ : Shape).Idx → EReal) (b : (⟨1, ![128]⟩ : Shape).Idx → EReal)
    (r : Fin R) (c : Fin 128) : EReal :=
  lin feat nbr coords nbrc W b r c * Ideal.logistic (lin feat nbr coords nbrc W b r c)

end Rows

/-- Row r of the output reads row r of the four row-indexed arrays only: two families of arrays, of R and R' rows,
    that agree on their rows r and r' give the same output there. -/
theorem rows_congr {R R' : Nat}
    (feat : (⟨2, ![R, 64]⟩ : Shape).Idx → EReal) (nbr : (⟨3, ![R, 16, 64]⟩ : Shape).Idx → EReal)
    (coords : (⟨2, ![R, 3]⟩ : Shape).Idx → EReal) (nbrc : (⟨3, ![R, 16, 3]⟩ : Shape).Idx → EReal)
    (feat' : (⟨2, ![R', 64]⟩ : Shape).Idx → EReal) (nbr' : (⟨3, ![R', 16, 64]⟩ : Shape).Idx → EReal)
    (coords' : (⟨2, ![R', 3]⟩ : Shape).Idx → EReal) (nbrc' : (⟨3, ![R', 16, 3]⟩ : Shape).Idx → EReal)
    (W : (⟨2, ![134, 128]⟩ : Shape).Idx → EReal) (b : (⟨1, ![128]⟩ : Shape).Idx → EReal)
    (r : Fin R) (r' : Fin R')
    (h0 : ∀ q, feat (ix2 r q) = feat' (ix2 r' q)) (h1 : ∀ k q, nbr (ix3 r k q) = nbr' (ix3 r' k q))
    (h2 : ∀ d, coords (ix2 r d) = coords' (ix2 r' d)) (h3 : ∀ k d, nbrc (ix3 r k d) = nbrc' (ix3 r' k d))
    (c : Fin 128) :
    out feat nbr coords nbrc W b r c = out feat' nbr' coords' nbrc' W b r' c := by
  have ea : agg nbr r = agg nbr' r' := funext fun q => by unfold agg; simp only [h1]
  have er : rel coords nbrc r = rel coords' nbrc' r' := funext fun k => funext fun d => by unfold rel; rw [h2, h3]
  have em : relMean coords nbrc r = relMean coords' nbrc' r' := funext fun d => by unfold relMean; rw [er]
  have es : relStd coords nbrc r = relStd coords' nbrc' r' := funext fun d => by unfold relStd; rw [er, em]
  have ex : mix feat nbr coords nbrc r = mix feat' nbr' coords' nbrc' r' := funext fun j => by
    unfold mix; rw [ea, em, es]; simp only [h0]
  unfold out lin
  rw [ex]

/-! ## Three vector operations read at an index, for any number of rows -/

section Reads
variable {R : Nat} {α : Type}

/-- The index a sum over the middle axis inserts: coordinate k between the row and the column. -/
theorem lift_mid {C : Nat} (h : Shape.Reduces ⟨3, ![R, 16, C]⟩ [1] ⟨2, ![R, C]⟩) (r : Fin R) (c : Fin C) (k : Fin 16) :
    h.lift (ix2 r c) k = ix3 r k c :=
  funext fun a => Fin.ext (by match a with | ⟨0, _⟩ => rfl | ⟨1, _⟩ => rfl | ⟨2, _⟩ => rfl)

/-- A row of three repeated sixteen times along a new middle axis reads, at (r, k, d), the row's entry d. -/
theorem repeat_mid (x : (⟨2, ![R, 3]⟩ : Shape).Idx → α) (hc : (⟨2, ![R, 3]⟩ : Shape).ShapeCasts ⟨3, ![R, 1, 3]⟩)
    (hb : (⟨3, ![R, 1, 3]⟩ : Shape).Broadcasts ⟨3, ![R, 16, 3]⟩) (r : Fin R) (k : Fin 16) (d : Fin 3) :
    broadcastTo ⟨3, ![R, 16, 3]⟩ (shapeCast ⟨3, ![R, 1, 3]⟩ x hc) hb (ix3 r k d) = x (ix2 r d) := by
  refine (broadcastTo_apply _ hb (ix3 r k d) (ix3 r (0 : Fin 1) d) fun a => ?_).trans
    (shapeCast_apply x hc (ix3 r (0 : Fin 1) d) (ix2 r d) ?_)
  · match a with
    | ⟨0, _⟩ =>
      show r.val = if R = 1 then 0 else r.val
      split
      · have := r.isLt; omega
      · rfl
    | ⟨1, _⟩ => rfl
    | ⟨2, _⟩ => rfl
  · rw [Shape.rowMajor_val_two, Shape.rowMajor_val_three]
    show r.val * 3 + d.val = (r.val * 1 + 0) * 3 + d.val
    omega

/-- Four pieces of 64, 64, 3 and 3 columns laid side by side read, at (r, j), the piece whose span holds column j,
    at j less the columns before it. -/
theorem concat4_apply (a b : (⟨2, ![R, 64]⟩ : Shape).Idx → EReal) (c d : (⟨2, ![R, 3]⟩ : Shape).Idx → EReal)
    (h : Shape.Concatenates [⟨2, ![R, 64]⟩, ⟨2, ![R, 64]⟩, ⟨2, ![R, 3]⟩, ⟨2, ![R, 3]⟩] ⟨2, ![R, 134]⟩ 1)
    (r : Fin R) (j : Fin 134) :
    concatenate ⟨2, ![R, 134]⟩ 1 [⟨⟨2, ![R, 64]⟩, a⟩, ⟨⟨2, ![R, 64]⟩, b⟩, ⟨⟨2, ![R, 3]⟩, c⟩, ⟨⟨2, ![R, 3]⟩, d⟩] h (ix2 r j)
      = pick (fun q => a (ix2 r q)) (fun q => b (ix2 r q)) (fun q => c (ix2 r q)) (fun q => d (ix2 r q)) j := by
  have hj := j.isLt
  unfold pick
  split_ifs with h0 h1 h2
  · refine concatenate_apply_piece 1 [⟨⟨2, ![R, 64]⟩, a⟩, ⟨⟨2, ![R, 64]⟩, b⟩, ⟨⟨2, ![R, 3]⟩, c⟩, ⟨⟨2, ![R, 3]⟩, d⟩] h (ix2 r j) 0 (by show 0 < 4; omega) _ a rfl rfl 0 rfl (ix2 r ⟨j.val, h0⟩) (fun ax hax => ?_) ?_
    · match ax with
      | ⟨0, _⟩ => rfl
      | ⟨1, _⟩ => exact absurd rfl hax
    · exact Nat.zero_add _
  · refine concatenate_apply_piece 1 [⟨⟨2, ![R, 64]⟩, a⟩, ⟨⟨2, ![R, 64]⟩, b⟩, ⟨⟨2, ![R, 3]⟩, c⟩, ⟨⟨2, ![R, 3]⟩, d⟩] h (ix2 r j) 1 (by show 1 < 4; omega) _ b rfl rfl 64 rfl (ix2 r ⟨j.val - 64, by omega⟩) (fun ax hax => ?_) ?_
    · match ax with
      | ⟨0, _⟩ => rfl
      | ⟨1, _⟩ => exact absurd rfl hax
    · show 64 + (j.val - 64) = j.val
      omega
  · refine concatenate_apply_piece 1 [⟨⟨2, ![R, 64]⟩, a⟩, ⟨⟨2, ![R, 64]⟩, b⟩, ⟨⟨2, ![R, 3]⟩, c⟩, ⟨⟨2, ![R, 3]⟩, d⟩] h (ix2 r j) 2 (by show 2 < 4; omega) _ c rfl rfl 128 rfl (ix2 r ⟨j.val - 128, by omega⟩) (fun ax hax => ?_) ?_
    · match ax with
      | ⟨0, _⟩ => rfl
      | ⟨1, _⟩ => exact absurd rfl hax
    · show 128 + (j.val - 128) = j.val
      omega
  · refine concatenate_apply_piece 1 [⟨⟨2, ![R, 64]⟩, a⟩, ⟨⟨2, ![R, 64]⟩, b⟩, ⟨⟨2, ![R, 3]⟩, c⟩, ⟨⟨2, ![R, 3]⟩, d⟩] h (ix2 r j) 3 (by show 3 < 4; omega) _ d rfl rfl 131 rfl (ix2 r ⟨j.val - 131, by omega⟩) (fun ax hax => ?_) ?_
    · match ax with
      | ⟨0, _⟩ => rfl
      | ⟨1, _⟩ => exact absurd rfl hax
    · show 131 + (j.val - 131) = j.val
      omega

end Reads

end Cert.GraphConv

end
-- ==== Proof.KernelPay.lean ====
/-
  What the kernel's body computes at one grid point, index by index.

  The body loads six blocks: 400 feature rows, their 400 x 16 neighbour rows, 400 positions, their 400 x 16 neighbour
  positions, the weights and the bias; it stores one 400 x 128 block. Its arithmetic is the layer of Proof/Spec.lean
  on those 400 rows: the sum over the sixteen neighbours is a lane reduction over the middle axis; a row is
  subtracted from its sixteen neighbours through a unit middle axis repeated sixteen times; the four pieces are laid
  side by side along the last axis; the product with the weights is one matrix product into the zero accumulator,
  its operands rounded to bf16 first, which at the extended reals changes nothing; the bias is one row repeated 400
  times. So entry (p, q) of the stored block is the specification's out at row p, column q, of the six loaded
  blocks (stored_apply).
-/
import proofs.«149083_j63943473103526_1_alg».proof.Proof.Gen.KernelIdeal.Skeleton
import proofs.«149083_j63943473103526_1_alg».proof.Proof.Spec
import Idealize.ShloMosaic.Lib.ValueLayout

noncomputable section

namespace Cert.KernelIdeal.Body

open Cert.KernelIdeal Cert.KernelIdeal.Gen Idealize.ShloMosaic Idealize.ShloMosaic.ValueIdx Cert.GraphConv

/-! ## The body's stages -/

/-- The neighbours' mean features. -/
def aggK (v1 : Vec Ideal S400x16x64 .f32) : FVec Ideal S400x64 .f32 :=
  divf (multiReduction .add [1] S400x64 (shapeCast S400x16x64 v1 shapeCasts_S400x16x64_S400x16x64) 0x00000000#32 reduces_S400x16x64_S400x64 (.inl rfl) rfl)
    (broadcast S400x64 (Scalar.ofBits .f32 0x41800000#32))

/-- The neighbours' positions relative to the node's. -/
def relK (v6 : Vec Ideal S400x3 .f32) (v7 : Vec Ideal S400x16x3 .f32) : FVec Ideal S400x16x3 .f32 :=
  subf (shapeCast S400x16x3 v7 shapeCasts_S400x16x3_S400x16x3)
    (broadcastTo S400x16x3 (shapeCast S400x1x3 v6 shapeCasts_S400x3_S400x1x3) broadcasts_S400x1x3_S400x16x3)

/-- Their mean. -/
def meanK (rl : FVec Ideal S400x16x3 .f32) : FVec Ideal S400x3 .f32 :=
  divf (multiReduction .add [1] S400x3 rl 0x00000000#32 reduces_S400x16x3_S400x3 (.inl rfl) rfl)
    (broadcast S400x3 (Scalar.ofBits .f32 0x41800000#32))

/-- The relative positions less their mean. -/
def devK (rl : FVec Ideal S400x16x3 .f32) : FVec Ideal S400x16x3 .f32 :=
  subf rl (broadcastTo S400x16x3 (shapeCast S400x1x3 (meanK rl) shapeCasts_S400x3_S400x1x3) broadcasts_S400x1x3_S400x16x3)

/-- Their standard deviation. -/
def stdK (rl : FVec Ideal S400x16x3 .f32) : FVec Ideal S400x3 .f32 :=
  sqrt (divf (multiReduction .add [1] S400x3 (mulf (devK rl) (devK rl)) 0x00000000#32 reduces_S400x16x3_S400x3 (.inl rfl) rfl)
    (broadcast S400x3 (Scalar.ofBits .f32 0x41800000#32)))

/-- The dense layer over the four pieces laid side by side. -/
def linK (v0 : Vec Ideal S400x64 .f32) (a : FVec Ideal S400x64 .f32) (mn sd : FVec Ideal S400x3 .f32)
    (v25 : Vec Ideal S134x128 .f32) (v28 : Vec Ideal S128 .f32) : FVec Ideal S400x128 .f32 :=
  addf (matmul dot_S400x134_S134x128_S400x128_1_0_0_1_n_n none
      (truncf .bf16 (concatenate S400x134 1 [⟨S400x64, v0⟩, ⟨S400x64, a⟩, ⟨S400x3, mn⟩, ⟨S400x3, sd⟩]
        concatenates_S400x64_S400x64_S400x3_S400x3_S400x134_d1) bitsLt_bf16_f32)
      (truncf .bf16 v25 bitsLt_bf16_f32) (constant S400x128 .f32 0x00000000#32))
    (broadcastTo S400x128 (shapeCast S1x128 v28 shapeCasts_S128_S1x128) broadcasts_S1x128_S400x128)

/-- The stored value is SiLU of the dense layer over those stages. -/
theorem pay_eq (v0 : Vec Ideal S400x64 .f32) (v1 : Vec Ideal S400x16x64 .f32) (v6 : Vec Ideal S400x3 .f32)
    (v7 : Vec Ideal S400x16x3 .f32) (v25 : Vec Ideal S134x128 .f32) (v28 : Vec Ideal S128 .f32) :
    k0_pay1 (F := Ideal) v0 v1 v6 v7 v25 v28
      = mulf (linK v0 (aggK v1) (meanK (relK v6 v7)) (stdK (relK v6 v7)) v25 v28)
          (logistic (linK v0 (aggK v1) (meanK (relK v6 v7)) (stdK (relK v6 v7)) v25 v28)) := rfl

/-! ## The stages at an index -/

/-- A lane sum over the sixteen neighbours, 64 columns. -/
theorem sum_mid64 (x : FVec Ideal S400x16x64 .f32) (p : Fin 400) (c : Fin 64) :
    multiReduction .add [1] S400x64 x 0x00000000#32 reduces_S400x16x64_S400x64 (.inl rfl) rfl (ix2 p c)
      = ∑ k : Fin 16, x (ix3 p k c) :=
  (Ideal.multiReduction_add_single x _ reduces_S400x16x64_S400x64 (.inl rfl) rfl (ix2 p c)).trans
    (Finset.sum_congr rfl fun k _ => congrArg x (lift_mid reduces_S400x16x64_S400x64 p c k))

/-- A lane sum over the sixteen neighbours, 3 columns. -/
theorem sum_mid3 (x : FVec Ideal S400x16x3 .f32) (p : Fin 400) (d : Fin 3) :
    multiReduction .add [1] S400x3 x 0x00000000#32 reduces_S400x16x3_S400x3 (.inl rfl) rfl (ix2 p d)
      = ∑ k : Fin 16, x (ix3 p k d) :=
  (Ideal.multiReduction_add_single x _ reduces_S400x16x3_S400x3 (.inl rfl) rfl (ix2 p d)).trans
    (Finset.sum_congr rfl fun k _ => congrArg x (lift_mid reduces_S400x16x3_S400x3 p d k))

theorem aggK_apply (v1 : Vec Ideal S400x16x64 .f32) (p : Fin 400) (c : Fin 64) :
    aggK v1 (ix2 p c) = agg (R := 400) v1 p c := by
  unfold aggK agg
  rw [shapeCast_self]
  exact congrArg (fun s => Ideal.div s sixteen) (sum_mid64 v1 p c)

theorem relK_apply (v6 : Vec Ideal S400x3 .f32) (v7 : Vec Ideal S400x16x3 .f32) (p : Fin 400) (k : Fin 16) (d : Fin 3) :
    relK v6 v7 (ix3 p k d) = rel (R := 400) v6 v7 p k d := by
  unfold relK rel
  rw [shapeCast_self]
  exact congrArg (fun s => v7 (ix3 p k d) - s) (repeat_mid v6 shapeCasts_S400x3_S400x1x3 broadcasts_S400x1x3_S400x16x3 p k d)

theorem meanK_apply (rl : FVec Ideal S400x16x3 .f32) (p : Fin 400) (d : Fin 3) :
    meanK rl (ix2 p d) = Ideal.div (∑ k : Fin 16, rl (ix3 p k d)) sixteen := by
  unfold meanK
  exact congrArg (fun s => Ideal.div s sixteen) (sum_mid3 rl p d)

theorem devK_apply (rl : FVec Ideal S400x16x3 .f32) (p : Fin 400) (k : Fin 16) (d : Fin 3) :
    devK rl (ix3 p k d) = rl (ix3 p k d) - meanK rl (ix2 p d) := by
  unfold devK
  exact congrArg (fun s => rl (ix3 p k d) - s) (repeat_mid (meanK rl) shapeCasts_S400x3_S400x1x3 broadcasts_S400x1x3_S400x16x3 p k d)

theorem stdK_apply (rl : FVec Ideal S400x16x3 .f32) (p : Fin 400) (d : Fin 3) :
    stdK rl (ix2 p d) = Ideal.sqrt (Ideal.div (∑ k : Fin 16, (rl (ix3 p k d) - meanK rl (ix2 p d)) * (rl (ix3 p k d) - meanK rl (ix2 p d))) sixteen) := by
  unfold stdK
  refine congrArg (fun s => Ideal.sqrt (Ideal.div s sixteen)) ((sum_mid3 _ p d).trans (Finset.sum_congr rfl fun k _ => ?_))
  show devK rl (ix3 p k d) * devK rl (ix3 p k d) = _
  rw [devK_apply]

/-! ## The matrix product at an index -/

theorem lhs_0 (i : S400x128.Idx) (q : dot_S400x134_S134x128_S400x128_1_0_0_1_n_n.contr.Idx) : (dot_S400x134_S134x128_S400x128_1_0_0_1_n_n.lhsIdx i q 0).val = (i 0).val := by
  unfold DotDims.lhsIdx
  rw [dif_neg (show ¬(0 : Fin S400x134.rank) ∈ dot_S400x134_S134x128_S400x128_1_0_0_1_n_n.lhsBatch by decide), dif_pos (show (0 : Fin S400x134.rank) ∈ dot_S400x134_S134x128_S400x128_1_0_0_1_n_n.lhsNonContracting by decide)]
  rfl
theorem lhs_1 (i : S400x128.Idx) (q : dot_S400x134_S134x128_S400x128_1_0_0_1_n_n.contr.Idx) : (dot_S400x134_S134x128_S400x128_1_0_0_1_n_n.lhsIdx i q 1).val = (q ⟨0, by decide⟩).val :=
  dot_S400x134_S134x128_S400x128_1_0_0_1_n_n.lhsIdx_val_of_single rfl i q
theorem rhs_0 (i : S400x128.Idx) (q : dot_S400x134_S134x128_S400x128_1_0_0_1_n_n.contr.Idx) : (dot_S400x134_S134x128_S400x128_1_0_0_1_n_n.rhsIdx i q 0).val = (q ⟨0, by decide⟩).val :=
  dot_S400x134_S134x128_S400x128_1_0_0_1_n_n.rhsIdx_val_of_single rfl i q
theorem rhs_1 (i : S400x128.Idx) (q : dot_S400x134_S134x128_S400x128_1_0_0_1_n_n.contr.Idx) : (dot_S400x134_S134x128_S400x128_1_0_0_1_n_n.rhsIdx i q 1).val = (i 1).val := by
  unfold DotDims.rhsIdx
  rw [dif_neg (show ¬(1 : Fin S134x128.rank) ∈ dot_S400x134_S134x128_S400x128_1_0_0_1_n_n.rhsBatch by decide), dif_pos (show (1 : Fin S134x128.rank) ∈ dot_S400x134_S134x128_S400x128_1_0_0_1_n_n.rhsNonContracting by decide)]
  rfl

/-- The product of a 400 x 134 block with the 134 x 128 weights into the zero accumulator, at (p, q): the sum over
    the 134 shared positions. -/
theorem matmul_rows (l : FVec Ideal S400x134 .bf16) (r : FVec Ideal S134x128 .bf16) (p : Fin 400) (q : Fin 128) :
    matmul dot_S400x134_S134x128_S400x128_1_0_0_1_n_n none l r (constant S400x128 .f32 0x00000000#32) (ix2 p q)
      = ∑ j : Fin 134, l (ix2 p j) * r (ix2 j q) := by
  refine (Ideal.matmul_constant_zero_apply dot_S400x134_S134x128_S400x128_1_0_0_1_n_n none l r (ix2 p q)).trans ?_
  rw [← Equiv.sum_comp (contrEquiv1 dot_S400x134_S134x128_S400x128_1_0_0_1_n_n 134 rfl rfl).symm]
  refine Finset.sum_congr rfl fun k _ => ?_
  have hk := contrEquiv1_symm_val dot_S400x134_S134x128_S400x128_1_0_0_1_n_n 134 rfl rfl k
  have el : dot_S400x134_S134x128_S400x128_1_0_0_1_n_n.lhsIdx (ix2 p q) ((contrEquiv1 dot_S400x134_S134x128_S400x128_1_0_0_1_n_n 134 rfl rfl).symm k) = ix2 p k := funext fun a => Fin.ext (by
    match a with
    | ⟨0, _⟩ => exact lhs_0 _ _
    | ⟨1, _⟩ => exact (lhs_1 _ _).trans hk)
  have er : dot_S400x134_S134x128_S400x128_1_0_0_1_n_n.rhsIdx (ix2 p q) ((contrEquiv1 dot_S400x134_S134x128_S400x128_1_0_0_1_n_n 134 rfl rfl).symm k) = ix2 k q := funext fun a => Fin.ext (by
    match a with
    | ⟨0, _⟩ => exact (rhs_0 _ _).trans hk
    | ⟨1, _⟩ => exact rhs_1 _ _)
  rw [el, er]

theorem linK_apply (v0 : Vec Ideal S400x64 .f32) (a : FVec Ideal S400x64 .f32) (mn sd : FVec Ideal S400x3 .f32)
    (v25 : Vec Ideal S134x128 .f32) (v28 : Vec Ideal S128 .f32) (p : Fin 400) (q : Fin 128) :
    linK v0 a mn sd v25 v28 (ix2 p q)
      = (∑ j : Fin 134, pick (fun c => v0 (ix2 p c)) (fun c => a (ix2 p c)) (fun d => mn (ix2 p d)) (fun d => sd (ix2 p d)) j
          * v25 (ix2 j q)) + v28 (ix1 q) := by
  unfold linK
  show matmul (F := Ideal) dot_S400x134_S134x128_S400x128_1_0_0_1_n_n none _ _ _ (ix2 p q) + broadcastTo S400x128 (shapeCast S1x128 v28 shapeCasts_S128_S1x128) broadcasts_S1x128_S400x128 (ix2 p q) = _
  rw [matmul_rows, broadcastTo_1b_ab_apply, shapeCast_a_1a_apply]
  refine congrArg (· + v28 (ix1 q)) (Finset.sum_congr rfl fun j _ => ?_)
  exact congrArg (· * v25 (ix2 j q)) (concat4_apply v0 a mn sd concatenates_S400x64_S400x64_S400x3_S400x3_S400x134_d1 p j)

/-! ## The stored block -/

/-- Entry (p, q) of the block the body stores is the layer's output at row p, column q, of the six loaded blocks. -/
theorem stored_apply (v0 : Vec Ideal S400x64 .f32) (v1 : Vec Ideal S400x16x64 .f32) (v6 : Vec Ideal S400x3 .f32)
    (v7 : Vec Ideal S400x16x3 .f32) (v25 : Vec Ideal S134x128 .f32) (v28 : Vec Ideal S128 .f32) (p : Fin 400) (q : Fin 128) :
    k0_pay1 (F := Ideal) v0 v1 v6 v7 v25 v28 (ix2 p q) = out (R := 400) v0 v1 v6 v7 v25 v28 p q := by
  have hl : linK v0 (aggK v1) (meanK (relK v6 v7)) (stdK (relK v6 v7)) v25 v28 (ix2 p q)
      = lin (R := 400) v0 v1 v6 v7 v25 v28 p q := by
    rw [linK_apply]
    unfold lin mix
    have e1 : (fun c => aggK v1 (ix2 p c)) = agg (R := 400) v1 p := funext fun c => aggK_apply v1 p c
    have e2 : (fun d => meanK (relK v6 v7) (ix2 p d)) = relMean (R := 400) v6 v7 p := funext fun d => by
      rw [meanK_apply]; unfold relMean; simp only [relK_apply]
    have e3 : (fun d => stdK (relK v6 v7) (ix2 p d)) = relStd (R := 400) v6 v7 p := funext fun d => by
      rw [stdK_apply, congrFun e2 d]; unfold relStd; simp only [relK_apply]
    rw [e1, e2, e3]
  rw [pay_eq]
  show linK v0 (aggK v1) (meanK (relK v6 v7)) (stdK (relK v6 v7)) v25 v28 (ix2 p q)
      * Ideal.logistic (linK v0 (aggK v1) (meanK (relK v6 v7)) (stdK (relK v6 v7)) v25 v28 (ix2 p q)) = _
  rw [hl]
  rfl

end Cert.KernelIdeal.Body

end
-- ==== Proof.KernelFinal.lean ====
/-
  From the kernel's blocks to its whole result.

  The grid has 250 points; point t reads rows 400 t .. 400 t + 399 of the feature table, of the gathered neighbour
  features, of the positions and of the gathered neighbour positions, the whole weight matrix and bias, and writes
  rows 400 t .. 400 t + 399 of the result. Row p of what it writes is the layer of Proof/Spec.lean on row p of its
  blocks (Proof/KernelPay.lean), and row p of a block is row 400 t + p of its array, so it is the layer on row
  400 t + p of the whole arrays: point t writes block t of ONE whole-array function, wholeOut. The 250 blocks cover the
  100000 rows (row r is in block r / 400), so after the run the result array is wholeOut. The two gathered arrays are
  what the host operations before the kernel leave: the gather of the argument at the normalised indices.
-/
import proofs.«149083_j63943473103526_1_alg».proof.Proof.Gen.KernelIdeal.Value
import proofs.«149083_j63943473103526_1_alg».proof.Proof.KernelPay
import Idealize.ShloMosaic.Lib.StableHlo.Run

noncomputable section

namespace Cert.KernelIdeal.Whole

open Cert.KernelIdeal Cert.KernelIdeal.Gen Cert.KernelIdeal.Body Idealize.ShloMosaic Idealize.ShloMosaic.TcCoe Idealize.SL.Sem
open Idealize.ShloMosaic.ValueIdx Cert.GraphConv
open Idealize.ShloMosaic.Pipeline (Dat)

variable (m : (ℓ : Loc nD τ sig) → Buf (Elt Ideal) ℓ) (ρ : Dev nD → PrngReg)

/-! ## The arrays as the kernel finds them, and the whole-array function -/

abbrev featA (c : Dev nD) : Vec Ideal S100000x64 .f32 := V m c main_arg0
abbrev nbrA (c : Dev nD) : Vec Ideal S100000x16x64 .f32 := V m c main_v6
abbrev coordsA (c : Dev nD) : Vec Ideal S100000x3 .f32 := V m c main_arg1
abbrev nbrcA (c : Dev nD) : Vec Ideal S100000x16x3 .f32 := V m c main_v13
abbrev wA (c : Dev nD) : Vec Ideal S134x128 .f32 := V m c main_arg3
abbrev bA (c : Dev nD) : Vec Ideal S128 .f32 := V m c main_arg4

/-- The layer on the whole arrays: what the result array ends holding. -/
def wholeOut (c : Dev nD) : Vec Ideal S100000x128 .f32 := fun i =>
  out (R := 100000) (featA m c) (nbrA m c) (coordsA m c) (nbrcA m c) (wA m c) (bA m c) (i 0) (i 1)

/-! ## The index maps, decided over the grid -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The row-blocked windows sit at block t on the row axis and block 0 elsewhere; the weights and the bias at block 0. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row p of block t is row 400 t + p of the array. -/
def row (t : Fin cfg0.N) (p : Fin 400) : Fin 100000 :=
  ⟨t.val * 400 + p.val, by have ht : t.val < 250 := t.isLt; have := p.isLt; omega⟩

theorem emb0 (t : Fin cfg0.N) (p : Fin 400) (q : Fin 64) : ((cfg0.win 0).blk t).view.emb (ix2 p q) = ix2 (row t p) q := by
  obtain ⟨e0, e1, -⟩ := idx_facts t
  funext a; apply Fin.ext
  match a with
  | ⟨0, _⟩ => show win0_0.index t (0 : Fin 2) * 400 + 1 * p.val = t.val * 400 + p.val; omega
  | ⟨1, _⟩ => show win0_0.index t (1 : Fin 2) * 64 + 1 * q.val = q.val; omega

theorem emb1 (t : Fin cfg0.N) (p : Fin 400) (k : Fin 16) (q : Fin 64) : ((cfg0.win 1).blk t).view.emb (ix3 p k q) = ix3 (row t p) k q := by
  obtain ⟨-, -, e0, e1, e2, -⟩ := idx_facts t
  funext a; apply Fin.ext
  match a with
  | ⟨0, _⟩ => show win0_1.index t (0 : Fin 3) * 400 + 1 * p.val = t.val * 400 + p.val; omega
  | ⟨1, _⟩ => show win0_1.index t (1 : Fin 3) * 16 + 1 * k.val = k.val; omega
  | ⟨2, _⟩ => show win0_1.index t (2 : Fin 3) * 64 + 1 * q.val = q.val; omega

theorem emb2 (t : Fin cfg0.N) (p : Fin 400) (d : Fin 3) : ((cfg0.win 2).blk t).view.emb (ix2 p d) = ix2 (row t p) d := by
  obtain ⟨-, -, -, -, -, e0, e1, -⟩ := idx_facts t
  funext a; apply Fin.ext
  match a with
  | ⟨0, _⟩ => show win0_2.index t (0 : Fin 2) * 400 + 1 * p.val = t.val * 400 + p.val; omega
  | ⟨1, _⟩ => show win0_2.index t (1 : Fin 2) * 3 + 1 * d.val = d.val; omega

theorem emb3 (t : Fin cfg0.N) (p : Fin 400) (k : Fin 16) (d : Fin 3) : ((cfg0.win 3).blk t).view.emb (ix3 p k d) = ix3 (row t p) k d := by
  obtain ⟨-, -, -, -, -, -, -, e0, e1, e2, -⟩ := idx_facts t
  funext a; apply Fin.ext
  match a with
  | ⟨0, _⟩ => show win0_3.index t (0 : Fin 3) * 400 + 1 * p.val = t.val * 400 + p.val; omega
  | ⟨1, _⟩ => show win0_3.index t (1 : Fin 3) * 16 + 1 * k.val = k.val; omega
  | ⟨2, _⟩ => show win0_3.index t (2 : Fin 3) * 3 + 1 * d.val = d.val; omega

theorem emb4 (t : Fin cfg0.N) (y : S134x128.Idx) : ((cfg0.win 4).blk t).view.emb y = y := by
  obtain ⟨-, -, -, -, -, -, -, -, -, -, e0, e1, -⟩ := idx_facts t
  funext a; apply Fin.ext
  match a with
  | ⟨0, _⟩ => show win0_4.index t (0 : Fin 2) * 134 + 1 * (y 0).val = (y 0).val; omega
  | ⟨1, _⟩ => show win0_4.index t (1 : Fin 2) * 128 + 1 * (y 1).val = (y 1).val; omega

theorem emb5 (t : Fin cfg0.N) (y : S128.Idx) : ((cfg0.win 5).blk t).view.emb y = y := by
  obtain ⟨-, -, -, -, -, -, -, -, -, -, -, -, e0, -⟩ := idx_facts t
  funext a; apply Fin.ext
  match a with
  | ⟨0, _⟩ => show win0_5.index t (0 : Fin 1) * 128 + 1 * (y 0).val = (y 0).val; omega

theorem emb6 (t : Fin cfg0.N) (p : Fin 400) (q : Fin 128) : ((cfg0.win 6).blk t).view.emb (ix2 p q) = ix2 (row t p) q := by
  obtain ⟨-, -, -, -, -, -, -, -, -, -, -, -, -, e0, e1⟩ := idx_facts t
  funext a; apply Fin.ext
  match a with
  | ⟨0, _⟩ => show win0_6.index t (0 : Fin 2) * 400 + 1 * p.val = t.val * 400 + p.val; omega
  | ⟨1, _⟩ => show win0_6.index t (1 : Fin 2) * 128 + 1 * q.val = q.val; omega

/-! ## The input blocks as rows of the arrays -/

abbrev blk0 (c : Dev nD) (t : Fin cfg0.N) : Vec Ideal S400x64 .f32 := iblk m c 0 t
abbrev blk1 (c : Dev nD) (t : Fin cfg0.N) : Vec Ideal S400x16x64 .f32 := iblk m c 1 t
abbrev blk2 (c : Dev nD) (t : Fin cfg0.N) : Vec Ideal S400x3 .f32 := iblk m c 2 t
abbrev blk3 (c : Dev nD) (t : Fin cfg0.N) : Vec Ideal S400x16x3 .f32 := iblk m c 3 t
abbrev blk4 (c : Dev nD) (t : Fin cfg0.N) : Vec Ideal S134x128 .f32 := iblk m c 4 t
abbrev blk5 (c : Dev nD) (t : Fin cfg0.N) : Vec Ideal S128 .f32 := iblk m c 5 t

theorem read0 (c : Dev nD) (t : Fin cfg0.N) (p : Fin 400) (q : Fin 64) : blk0 m c t (ix2 p q) = featA m c (ix2 (row t p) q) := by
  show featA m c (((cfg0.win 0).blk t).view.emb (ix2 p q)) = _
  rw [emb0]

theorem read1 (c : Dev nD) (t : Fin cfg0.N) (p : Fin 400) (k : Fin 16) (q : Fin 64) : blk1 m c t (ix3 p k q) = nbrA m c (ix3 (row t p) k q) := by
  show nbrA m c (((cfg0.win 1).blk t).view.emb (ix3 p k q)) = _
  rw [emb1]

theorem read2 (c : Dev nD) (t : Fin cfg0.N) (p : Fin 400) (d : Fin 3) : blk2 m c t (ix2 p d) = coordsA m c (ix2 (row t p) d) := by
  show coordsA m c (((cfg0.win 2).blk t).view.emb (ix2 p d)) = _
  rw [emb2]

theorem read3 (c : Dev nD) (t : Fin cfg0.N) (p : Fin 400) (k : Fin 16) (d : Fin 3) : blk3 m c t (ix3 p k d) = nbrcA m c (ix3 (row t p) k d) := by
  show nbrcA m c (((cfg0.win 3).blk t).view.emb (ix3 p k d)) = _
  rw [emb3]

theorem read4 (c : Dev nD) (t : Fin cfg0.N) : blk4 m c t = wA m c := funext fun y => by
  show wA m c (((cfg0.win 4).blk t).view.emb y) = _
  rw [emb4]

theorem read5 (c : Dev nD) (t : Fin cfg0.N) : blk5 m c t = bA m c := funext fun y => by
  show bA m c (((cfg0.win 5).blk t).view.emb y) = _
  rw [emb5]

/-- Entry (p, q) of what the body stores at point t is the layer at row 400 t + p, column q, of the whole arrays. -/
theorem stored_whole (c : Dev nD) (t : Fin cfg0.N) (p : Fin 400) (q : Fin 128) :
    k0_pay1 (F := Ideal) (blk0 m c t) (blk1 m c t) (blk2 m c t) (blk3 m c t) (blk4 m c t) (blk5 m c t) (ix2 p q)
      = wholeOut m c (ix2 (row t p) q) := by
  rw [stored_apply, read4, read5]
  exact rows_congr (blk0 m c t) (blk1 m c t) (blk2 m c t) (blk3 m c t) (featA m c) (nbrA m c) (coordsA m c) (nbrcA m c)
    (wA m c) (bA m c) p (row t p) (fun q' => read0 m c t p q') (fun k q' => read1 m c t p k q')
    (fun d => read2 m c t p d) (fun k d => read3 m c t p k d) q

/-! ## Point t writes block t of wholeOut; the blocks cover the array -/

/-- What point t writes back is block t of wholeOut. -/
theorem flushed_eq (c : Dev nD) (t : Fin cfg0.N) :
    (dats m 0 c).flushed 6 t = ((cfg0.win 6).blk t).view.read (Elt Ideal) (wholeOut m c) := by
  rw [Cert.KernelIdeal.Value.flushed6]
  unfold out0_6
  rw [View.canon_unit_zero hz2]
  simp only [View.ld_unit_zero (S := S400x64) hz2, View.ld_unit_zero (S := S400x16x64) hz3, View.ld_unit_zero (S := S400x3) hz2,
    View.ld_unit_zero (S := S400x16x3) hz3, View.ld_unit_zero (S := S134x128) hz2, View.ld_unit_zero (S := S128) hz1]
  funext j
  obtain ⟨p, q, rfl⟩ : ∃ (p : Fin 400) (q : Fin 128), j = ix2 p q := ⟨j 0, j 1, eq_ix2 j⟩
  show k0_pay1 (F := Ideal) (blk0 m c t) (blk1 m c t) (blk2 m c t) (blk3 m c t) (blk4 m c t) (blk5 m c t) (ix2 p q)
    = wholeOut m c (((cfg0.win 6).blk t).view.emb (ix2 p q))
  rw [emb6]
  exact stored_whole m c t p q

/-- An index of the result array is in point t's block iff each coordinate is in the block's range on its axis. -/
theorem mem_blk6 (t : Fin cfg0.N) (i : S100000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v14).slice (win0_6.rect t)).set ↔ _
  rw [View.set_slice_whole, Rect.mem_set_unit]
  exact Iff.rfl

/-- Every index of the result array is in some point's block: row r is in block r / 400. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hlt : (i 0).val / 400 < 250 := by omega
  obtain ⟨-, -, -, -, -, -, -, -, -, -, -, -, -, e0, e1⟩ := idx_facts ⟨(i 0).val / 400, hlt⟩
  refine ⟨⟨(i 0).val / 400, hlt⟩, flush0_6 _, ?_⟩
  rw [mem_blk6]
  intro a
  match a with
  | ⟨0, _⟩ =>
    show win0_6.index ⟨(i 0).val / 400, hlt⟩ (0 : Fin 2) * 400 ≤ (i 0).val ∧ (i 0).val < win0_6.index ⟨(i 0).val / 400, hlt⟩ (0 : Fin 2) * 400 + 400
    rw [e0]
    show (i 0).val / 400 * 400 ≤ (i 0).val ∧ (i 0).val < (i 0).val / 400 * 400 + 400
    omega
  | ⟨1, _⟩ =>
    show win0_6.index ⟨(i 0).val / 400, hlt⟩ (1 : Fin 2) * 128 ≤ (i 1).val ∧ (i 1).val < win0_6.index ⟨(i 0).val / 400, hlt⟩ (1 : Fin 2) * 128 + 128
    rw [e1]
    omega

/-- The result array after the run is wholeOut. -/
theorem final (c : Dev nD) : (dats m 0 c).arrAt 6 cfg0.N = wholeOut m c :=
  (dats m 0 c).arrAt_eq_of_cover 6 (wholeOut m c) (fun t _ => flushed_eq m c t) covered

/-- The kernel's run: every weakly fair execution terminates with the result array at wholeOut and the arguments
    unchanged. -/
theorem run : θ_run defs (onTc (τ := τ) (main (F := Ideal))) ⟨m, fun _ => 0, ρ⟩ fun r => ∀ c : Dev nD,
      r.2.mem ((c : Thread nD τ).loc main_v14) = wholeOut m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

/-! ## The gathered arrays -/

/-- The neighbour indices as the gathers take them: a negative index counted from the end, then a unit axis added. -/
def normIdxK (idx : (⟨S100000x16, .i32⟩ : BufTy).Contents (Elt Ideal)) : (⟨S100000x16x1, .i32⟩ : BufTy).Contents (Elt Ideal) :=
  broadcastInDim S100000x16x1 ![0, 1] bcast_S100000x16_S100000x16x1_0_1
    (select (cmpi .slt idx (broadcastInDim S100000x16 ![] bcast_S_S100000x16 (constantI S_ 32 0#32)))
      (addi idx (broadcastInDim S100000x16 ![] bcast_S_S100000x16 (constantI S_ 32 100000#32))) idx)

/-- The gathered neighbour features are the gather of the feature argument at the normalised index argument. -/
theorem nbrA_eq (c : Dev nD) :
    nbrA m c = Host.gather gather_S100000x64_S100000x16x1_S100000x16x64_2_0_n_n_0_2_164 (m ((c : Thread nD τ).loc main_arg0)) (normIdxK (m ((c : Thread nD τ).loc main_arg2))) := by
  unfold normIdxK
  dsimp only [nbrA, Gen.V, Gen.hostOps0]
  after_results

/-- The gathered neighbour positions likewise. -/
theorem nbrcA_eq (c : Dev nD) :
    nbrcA m c = Host.gather gather_S100000x3_S100000x16x1_S100000x16x3_2_0_n_n_0_2_13 (m ((c : Thread nD τ).loc main_arg1)) (normIdxK (m ((c : Thread nD τ).loc main_arg2))) := by
  unfold normIdxK
  dsimp only [nbrcA, Gen.V, Gen.hostOps0]
  after_results

end Cert.KernelIdeal.Whole

end
-- ==== Proof.RefRun.lean ====
/-
  The reference program's run, read back.

  The reference is a straight line of host operations once its four outlined functions (the variance, its guarded
  quotient, the standard deviation, SiLU) are read at their call sites: sixty-nine operations. They are listed here
  in five stretches, in program order:
    A  the neighbours' features gathered and averaged;
    B  the neighbours' positions gathered, made relative to the node, and averaged;
    C  the standard deviation of the relative positions (the outlined variance: the centred squares summed and
       divided by 16 less the degrees of freedom, an integer operand that is 0 here; then the square root);
    D  the four pieces laid side by side, the matrix product with the weights, the bias;
    E  SiLU, spelt as x * (1 / (1 + exp (-x))).
  Each stretch's result is named as a function of what the stretch reads (aggV, relV, meanV, stdV, linV, siluV),
  and the whole result, refOut, is their composition. What a stretch leaves in a buffer is read against ANY contents
  it starts from, so the five readings chain by rewriting and no stretch is walked twice.
-/
import proofs.«149083_j63943473103526_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The value, stage by stage -/

/-- The neighbour indices as the gather takes them: a negative index counted from the end, then a unit axis added. -/
def normIdx (idx : (⟨S100000x16, .i32⟩ : BufTy).Contents (Elt F)) : (⟨S100000x16x1, .i32⟩ : BufTy).Contents (Elt F) :=
  broadcastInDim S100000x16x1 ![0, 1] bcast_S100000x16_S100000x16x1_0_1
    (select (cmpi .slt idx (broadcastInDim S100000x16 ![] bcast_S_S100000x16 (constantI S_ 32 0#32)))
      (addi idx (broadcastInDim S100000x16 ![] bcast_S_S100000x16 (constantI S_ 32 100000#32))) idx)

/-- The sixteen neighbours' feature rows of every node. -/
def nbrOf (feat : (⟨S100000x64, .f32⟩ : BufTy).Contents (Elt F)) (idx : (⟨S100000x16, .i32⟩ : BufTy).Contents (Elt F)) : (⟨S100000x16x64, .f32⟩ : BufTy).Contents (Elt F) :=
  Host.gather gather_S100000x64_S100000x16x1_S100000x16x64_2_0_n_n_0_2_164 feat (normIdx (F := F) idx)

/-- The sixteen neighbours' positions of every node. -/
def nbrcOf (coords : (⟨S100000x3, .f32⟩ : BufTy).Contents (Elt F)) (idx : (⟨S100000x16, .i32⟩ : BufTy).Contents (Elt F)) : (⟨S100000x16x3, .f32⟩ : BufTy).Contents (Elt F) :=
  Host.gather gather_S100000x3_S100000x16x1_S100000x16x3_2_0_n_n_0_2_13 coords (normIdx (F := F) idx)

/-- The neighbours' mean feature row. -/
def aggV (nbr : (⟨S100000x16x64, .f32⟩ : BufTy).Contents (Elt F)) : (⟨S100000x64, .f32⟩ : BufTy).Contents (Elt F) :=
  Host.divf (Host.reduceAdd nbr (constant S_ .f32 0x00000000#32) reducesTo_S100000x16x64_S100000x64_d1 h_S_)
    (broadcastInDim S100000x64 ![] bcast_S_S100000x64 (constant S_ .f32 0x41800000#32))

/-- The neighbours' positions relative to the node's. -/
def relV (coords : (⟨S100000x3, .f32⟩ : BufTy).Contents (Elt F)) (nbrc : (⟨S100000x16x3, .f32⟩ : BufTy).Contents (Elt F)) : (⟨S100000x16x3, .f32⟩ : BufTy).Contents (Elt F) :=
  subf nbrc (broadcastInDim S100000x16x3 ![0, 1, 2] bcast_S100000x1x3_S100000x16x3_0_1_2
    (broadcastInDim S100000x1x3 ![0, 2] bcast_S100000x3_S100000x1x3_0_2 coords))

/-- Their mean over the sixteen neighbours. -/
def meanV (rel : (⟨S100000x16x3, .f32⟩ : BufTy).Contents (Elt F)) : (⟨S100000x3, .f32⟩ : BufTy).Contents (Elt F) :=
  Host.divf (Host.reduceAdd rel (constant S_ .f32 0x00000000#32) reducesTo_S100000x16x3_S100000x3_d1 h_S_)
    (broadcastInDim S100000x3 ![] bcast_S_S100000x3 (constant S_ .f32 0x41800000#32))

/-- The relative positions less their mean, the mean kept as a unit middle axis and repeated. -/
def devV (rel : (⟨S100000x16x3, .f32⟩ : BufTy).Contents (Elt F)) : (⟨S100000x16x3, .f32⟩ : BufTy).Contents (Elt F) :=
  subf rel (broadcastInDim S100000x16x3 ![0, 1, 2] bcast_S100000x1x3_S100000x16x3_0_1_2
    (Host.divf (broadcastInDim S100000x1x3 ![0, 2] bcast_S100000x3_S100000x1x3_0_2
        (Host.reduceAdd rel (constant S_ .f32 0x00000000#32) reducesTo_S100000x16x3_S100000x3_d1 h_S_))
      (broadcastInDim S100000x1x3 ![] bcast_S_S100000x1x3 (constant S_ .f32 0x41800000#32))))

/-- The divisor of the variance: sixteen less the degrees of freedom. -/
def countV (ddof : (⟨S_, .i32⟩ : BufTy).Contents (Elt F)) : (⟨S_, .f32⟩ : BufTy).Contents (Elt F) :=
  subf (constant (F := F) S_ .f32 0x41800000#32) (sitofp (F := F) .f32 ddof)

/-- The centred squares. -/
def sqV (rel : (⟨S100000x16x3, .f32⟩ : BufTy).Contents (Elt F)) : (⟨S100000x16x3, .f32⟩ : BufTy).Contents (Elt F) := mulf (devV rel) (devV rel)

/-- From the centred squares to the standard deviation: their sum, divided by the count where the count is positive
    (the quiet-NaN pattern elsewhere), and the square root. -/
def stdFrom (sq : (⟨S100000x16x3, .f32⟩ : BufTy).Contents (Elt F)) (ddof : (⟨S_, .i32⟩ : BufTy).Contents (Elt F)) : (⟨S100000x3, .f32⟩ : BufTy).Contents (Elt F) :=
  Host.sqrt (select (broadcastInDim S100000x3 ![] bcast_S_S100000x3
      (cmpf (F := F) .ogt (countV (F := F) ddof) (constant (F := F) S_ .f32 0x00000000#32)))
    (Host.divf (Host.reduceAdd sq (constant S_ .f32 0x00000000#32) reducesTo_S100000x16x3_S100000x3_d1 h_S_)
      (broadcastInDim S100000x3 ![] bcast_S_S100000x3 (countV (F := F) ddof)))
    (broadcastInDim S100000x3 ![] bcast_S_S100000x3 (id (constant (F := F) S_ .f32 0x7FC00000#32))))

/-- The standard deviation of the relative positions. -/
def stdV (rel : (⟨S100000x16x3, .f32⟩ : BufTy).Contents (Elt F)) (ddof : (⟨S_, .i32⟩ : BufTy).Contents (Elt F)) : (⟨S100000x3, .f32⟩ : BufTy).Contents (Elt F) :=
  stdFrom (sqV rel) ddof

/-- The dense layer over the four pieces laid side by side. -/
def linV (feat agg : (⟨S100000x64, .f32⟩ : BufTy).Contents (Elt F)) (mean std : (⟨S100000x3, .f32⟩ : BufTy).Contents (Elt F))
    (W : (⟨S134x128, .f32⟩ : BufTy).Contents (Elt F)) (b : (⟨S128, .f32⟩ : BufTy).Contents (Elt F)) : (⟨S100000x128, .f32⟩ : BufTy).Contents (Elt F) :=
  addf (Host.dotGeneral dot_S100000x134_S134x128_S100000x128_1_0_0_1_n_n none
      (concatenate S100000x134 1 [⟨S100000x64, feat⟩, ⟨S100000x64, agg⟩, ⟨S100000x3, mean⟩, ⟨S100000x3, std⟩]
        concatenates_S100000x64_S100000x64_S100000x3_S100000x3_S100000x134_d1) W)
    (broadcastInDim S100000x128 ![0, 1] bcast_S1x128_S100000x128_0_1 (broadcastInDim S1x128 ![1] bcast_S128_S1x128_1 b))

/-- SiLU as the reference spells it. -/
def siluV (x : (⟨S100000x128, .f32⟩ : BufTy).Contents (Elt F)) : (⟨S100000x128, .f32⟩ : BufTy).Contents (Elt F) :=
  mulf x (Host.divf (broadcastInDim S100000x128 ![] bcast_S_S100000x128 (constant S_ .f32 0x3F800000#32))
    (addf (broadcastInDim S100000x128 ![] bcast_S_S100000x128 (constant S_ .f32 0x3F800000#32)) (Host.exp (Host.negf x))))

/-- The reference's result as one function of its five arguments. -/
def refOut (feat : (⟨S100000x64, .f32⟩ : BufTy).Contents (Elt F)) (coords : (⟨S100000x3, .f32⟩ : BufTy).Contents (Elt F)) (idx : (⟨S100000x16, .i32⟩ : BufTy).Contents (Elt F))
    (W : (⟨S134x128, .f32⟩ : BufTy).Contents (Elt F)) (b : (⟨S128, .f32⟩ : BufTy).Contents (Elt F)) : (⟨S100000x128, .f32⟩ : BufTy).Contents (Elt F) :=
  siluV (linV feat (aggV (nbrOf feat idx)) (meanV (relV coords (nbrcOf coords idx)))
    (stdV (relV coords (nbrcOf coords idx)) (constantI S_ 32 0#32)) W b)

/-! ## The operations, in five stretches -/

/-- A: the neighbours' features gathered and averaged. -/
abbrev opsA : List (HloOp τ sig (Elt F)) :=
  [ nullary main_c (constantI S_ 32 0#32),
    unary main_c main_v0 (broadcastInDim S100000x16 ![] bcast_S_S100000x16 : (⟨S_, .i32⟩ : BufTy).Contents (Elt F) → (⟨S100000x16, .i32⟩ : BufTy).Contents (Elt F)),
    binary main_arg2 main_v0 main_v1 (cmpi .slt : (⟨S100000x16, .i32⟩ : BufTy).Contents (Elt F) → (⟨S100000x16, .i32⟩ : BufTy).Contents (Elt F) → (⟨S100000x16, .i1⟩ : BufTy).Contents (Elt F)),
    nullary main_c_0 (constantI S_ 32 100000#32),
    unary main_c_0 main_v2 (broadcastInDim S100000x16 ![] bcast_S_S100000x16 : (⟨S_, .i32⟩ : BufTy).Contents (Elt F) → (⟨S100000x16, .i32⟩ : BufTy).Contents (Elt F)),
    binary main_arg2 main_v2 main_v3 (addi : (⟨S100000x16, .i32⟩ : BufTy).Contents (Elt F) → (⟨S100000x16, .i32⟩ : BufTy).Contents (Elt F) → (⟨S100000x16, .i32⟩ : BufTy).Contents (Elt F)),
    ternary main_v1 main_v3 main_arg2 main_v4 (select : (⟨S100000x16, .i1⟩ : BufTy).Contents (Elt F) → (⟨S100000x16, .i32⟩ : BufTy).Contents (Elt F) → (⟨S100000x16, .i32⟩ : BufTy).Contents (Elt F) → (⟨S100000x16, .i32⟩ : BufTy).Contents (Elt F)),
    unary main_v4 main_v5 (broadcastInDim S100000x16x1 ![0, 1] bcast_S100000x16_S100000x16x1_0_1 : (⟨S100000x16, .i32⟩ : BufTy).Contents (Elt F) → (⟨S100000x16x1, .i32⟩ : BufTy).Contents (Elt F)),
    binary main_arg0 main_v5 main_v6 ((fun x i => Host.gather gather_S100000x64_S100000x16x1_S100000x16x64_2_0_n_n_0_2_164 x i) : (⟨S100000x64, .f32⟩ : BufTy).Contents (Elt F) → (⟨S100000x16x1, .i32⟩ : BufTy).Contents (Elt F) → (⟨S100000x16x64, .f32⟩ : BufTy).Contents (Elt F)),
    nullary main_cst (constant S_ .f32 0x00000000#32),
    binary main_v6 main_cst main_v7 ((fun x v => Host.reduceAdd x v reducesTo_S100000x16x64_S100000x64_d1 h_S_) : (⟨S100000x16x64, .f32⟩ : BufTy).Contents (Elt F) → (⟨S_, .f32⟩ : BufTy).Contents (Elt F) → (⟨S100000x64, .f32⟩ : BufTy).Contents (Elt F)),
    nullary main_cst_1 (constant S_ .f32 0x41800000#32),
    unary main_cst_1 main_v8 (broadcastInDim S100000x64 ![] bcast_S_S100000x64 : (⟨S_, .f32⟩ : BufTy).Contents (Elt F) → (⟨S100000x64, .f32⟩ : BufTy).Contents (Elt F)),
    binary main_v7 main_v8 main_v9 (Host.divf : (⟨S100000x64, .f32⟩ : BufTy).Contents (Elt F) → (⟨S100000x64, .f32⟩ : BufTy).Contents (Elt F) → (⟨S100000x64, .f32⟩ : BufTy).Contents (Elt F)) ]

/-- B: the neighbours' positions gathered, made relative, averaged; and the zero degrees of freedom. -/
abbrev opsB : List (HloOp τ sig (Elt F)) :=
  [ nullary main_c_2 (constantI S_ 32 0#32),
    unary main_c_2 main_v10 (broadcastInDim S100000x16 ![] bcast_S_S100000x16 : (⟨S_, .i32⟩ : BufTy).Contents (Elt F) → (⟨S100000x16, .i32⟩ : BufTy).Contents (Elt F)),
    binary main_arg2 main_v10 main_v11 (cmpi .slt : (⟨S100000x16, .i32⟩ : BufTy).Contents (Elt F) → (⟨S100000x16, .i32⟩ : BufTy).Contents (Elt F) → (⟨S100000x16, .i1⟩ : BufTy).Contents (Elt F)),
    nullary main_c_3 (constantI S_ 32 100000#32),
    unary main_c_3 main_v12 (broadcastInDim S100000x16 ![] bcast_S_S100000x16 : (⟨S_, .i32⟩ : BufTy).Contents (Elt F) → (⟨S100000x16, .i32⟩ : BufTy).Contents (Elt F)),
    binary main_arg2 main_v12 main_v13 (addi : (⟨S100000x16, .i32⟩ : BufTy).Contents (Elt F) → (⟨S100000x16, .i32⟩ : BufTy).Contents (Elt F) → (⟨S100000x16, .i32⟩ : BufTy).Contents (Elt F)),
    ternary main_v11 main_v13 main_arg2 main_v14 (select : (⟨S100000x16, .i1⟩ : BufTy).Contents (Elt F) → (⟨S100000x16, .i32⟩ : BufTy).Contents (Elt F) → (⟨S100000x16, .i32⟩ : BufTy).Contents (Elt F) → (⟨S100000x16, .i32⟩ : BufTy).Contents (Elt F)),
    unary main_v14 main_v15 (broadcastInDim S100000x16x1 ![0, 1] bcast_S100000x16_S100000x16x1_0_1 : (⟨S100000x16, .i32⟩ : BufTy).Contents (Elt F) → (⟨S100000x16x1, .i32⟩ : BufTy).Contents (Elt F)),
    binary main_arg1 main_v15 main_v16 ((fun x i => Host.gather gather_S100000x3_S100000x16x1_S100000x16x3_2_0_n_n_0_2_13 x i) : (⟨S100000x3, .f32⟩ : BufTy).Contents (Elt F) → (⟨S100000x16x1, .i32⟩ : BufTy).Contents (Elt F) → (⟨S100000x16x3, .f32⟩ : BufTy).Contents (Elt F)),
    unary main_arg1 main_v17 (broadcastInDim S100000x1x3 ![0, 2] bcast_S100000x3_S100000x1x3_0_2 : (⟨S100000x3, .f32⟩ : BufTy).Contents (Elt F) → (⟨S100000x1x3, .f32⟩ : BufTy).Contents (Elt F)),
    unary main_v17 main_v18 (broadcastInDim S100000x16x3 ![0, 1, 2] bcast_S100000x1x3_S100000x16x3_0_1_2 : (⟨S100000x1x3, .f32⟩ : BufTy).Contents (Elt F) → (⟨S100000x16x3, .f32⟩ : BufTy).Contents (Elt F)),
    binary main_v16 main_v18 main_v19 (subf : (⟨S100000x16x3, .f32⟩ : BufTy).Contents (Elt F) → (⟨S100000x16x3, .f32⟩ : BufTy).Contents (Elt F) → (⟨S100000x16x3, .f32⟩ : BufTy).Contents (Elt F)),
    nullary main_cst_4 (constant S_ .f32 0x00000000#32),
    binary main_v19 main_cst_4 main_v20 ((fun x v => Host.reduceAdd x v reducesTo_S100000x16x3_S100000x3_d1 h_S_) : (⟨S100000x16x3, .f32⟩ : BufTy).Contents (Elt F) → (⟨S_, .f32⟩ : BufTy).Contents (Elt F) → (⟨S100000x3, .f32⟩ : BufTy).Contents (Elt F)),
    nullary main_cst_5 (constant S_ .f32 0x41800000#32),
    unary main_cst_5 main_v21 (broadcastInDim S100000x3 ![] bcast_S_S100000x3 : (⟨S_, .f32⟩ : BufTy).Contents (Elt F) → (⟨S100000x3, .f32⟩ : BufTy).Contents (Elt F)),
    binary main_v20 main_v21 main_v22 (Host.divf : (⟨S100000x3, .f32⟩ : BufTy).Contents (Elt F) → (⟨S100000x3, .f32⟩ : BufTy).Contents (Elt F) → (⟨S100000x3, .f32⟩ : BufTy).Contents (Elt F)),
    nullary main_c_6 (constantI S_ 32 0#32) ]

/-- C1: the outlined variance's first half at its call site: the relative positions centred and squared. -/
abbrev opsC1 : List (HloOp τ sig (Elt F)) :=
  [ TRef.nullary main_call0.call0.cst (constant S_ .f32 0x00000000#32),
    TRef.binary (.of main_v19) main_call0.call0.cst main_call0.call0.v0 (fun x v => Host.reduceAdd x v reducesTo_S100000x16x3_S100000x3_d1 h_S_),
    TRef.unary main_call0.call0.v0 main_call0.call0.v1 (broadcastInDim S100000x1x3 ![0, 2] bcast_S100000x3_S100000x1x3_0_2),
    TRef.nullary main_call0.call0.cst_0 (constant S_ .f32 0x41800000#32),
    TRef.unary main_call0.call0.cst_0 main_call0.call0.v2 (broadcastInDim S100000x1x3 ![] bcast_S_S100000x1x3),
    TRef.binary main_call0.call0.v1 main_call0.call0.v2 main_call0.call0.v3 Host.divf,
    TRef.unary main_call0.call0.v3 main_call0.call0.v4 (broadcastInDim S100000x16x3 ![0, 1, 2] bcast_S100000x1x3_S100000x16x3_0_1_2),
    TRef.binary (.of main_v19) main_call0.call0.v4 main_call0.call0.v5 subf,
    TRef.binary main_call0.call0.v5 main_call0.call0.v5 main_call0.call0.v6 mulf ]

/-- C2: its second half, the guarded quotient, and the square root. -/
abbrev opsC2 : List (HloOp τ sig (Elt F)) :=
  [ TRef.unary (.of main_c_6) main_call0.call0.v7 (sitofp .f32),
    TRef.nullary main_call0.call0.cst_1 (constant S_ .f32 0x41800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S100000x16x3_S100000x3_d1 h_S_),
    TRef.unary main_call0.call0.v8 main_call0.call0.v10 (broadcastInDim S100000x3 ![] bcast_S_S100000x3),
    TRef.binary main_call0.call0.v9 main_call0.call0.v10 main_call0.call0.v11 Host.divf,
    TRef.nullary main_call0.call0.cst_3 (constant S_ .f32 0x00000000#32),
    TRef.binary main_call0.call0.v8 main_call0.call0.cst_3 main_call0.call0.v12 (cmpf .ogt),
    TRef.nullary main_call0.call0.cst_4 (constant S_ .f32 0x7FC00000#32),
    TRef.unary main_call0.call0.cst_4 main_call0.call0.call0.v0 id,
    TRef.unary main_call0.call0.call0.v0 main_call0.call0.call0.v1 (broadcastInDim S100000x3 ![] bcast_S_S100000x3),
    TRef.ternary main_call0.call0.v12 main_call0.call0.v11 main_call0.call0.call0.v1 main_call0.call0.call0.v2 (fun p a b => select (broadcastInDim S100000x3 ![] bcast_S_S100000x3 p) a b),
    TRef.unary main_call0.call0.call0.v2 main_call0.v1 Host.sqrt ]

/-- D: the four pieces side by side, the product with the weights, the bias. -/
abbrev opsD : List (HloOp τ sig (Elt F)) :=
  [ nary ![main_arg0, main_v9, main_v22, main_v23] main_v24 (fun u => concatenate S100000x134 1 [⟨S100000x64, u 0⟩, ⟨S100000x64, u 1⟩, ⟨S100000x3, u 2⟩, ⟨S100000x3, u 3⟩] concatenates_S100000x64_S100000x64_S100000x3_S100000x3_S100000x134_d1),
    binary main_v24 main_arg3 main_v25 ((fun l r => Host.dotGeneral dot_S100000x134_S134x128_S100000x128_1_0_0_1_n_n none l r) : (⟨S100000x134, .f32⟩ : BufTy).Contents (Elt F) → (⟨S134x128, .f32⟩ : BufTy).Contents (Elt F) → (⟨S100000x128, .f32⟩ : BufTy).Contents (Elt F)),
    unary main_arg4 main_v26 (broadcastInDim S1x128 ![1] bcast_S128_S1x128_1 : (⟨S128, .f32⟩ : BufTy).Contents (Elt F) → (⟨S1x128, .f32⟩ : BufTy).Contents (Elt F)),
    unary main_v26 main_v27 (broadcastInDim S100000x128 ![0, 1] bcast_S1x128_S100000x128_0_1 : (⟨S1x128, .f32⟩ : BufTy).Contents (Elt F) → (⟨S100000x128, .f32⟩ : BufTy).Contents (Elt F)),
    binary main_v25 main_v27 main_v28 (addf : (⟨S100000x128, .f32⟩ : BufTy).Contents (Elt F) → (⟨S100000x128, .f32⟩ : BufTy).Contents (Elt F) → (⟨S100000x128, .f32⟩ : BufTy).Contents (Elt F)) ]

/-- E: SiLU at its call site. -/
abbrev opsE : List (HloOp τ sig (Elt F)) :=
  [ TRef.unary (.of main_v28) main_call1.v0 Host.negf,
    TRef.unary main_call1.v0 main_call1.v1 Host.exp,
    TRef.nullary main_call1.cst (constant S_ .f32 0x3F800000#32),
    TRef.unary main_call1.cst main_call1.v2 (broadcastInDim S100000x128 ![] bcast_S_S100000x128),
    TRef.binary main_call1.v2 main_call1.v1 main_call1.v3 addf,
    TRef.nullary main_call1.cst_0 (constant S_ .f32 0x3F800000#32),
    TRef.unary main_call1.cst_0 main_call1.v4 (broadcastInDim S100000x128 ![] bcast_S_S100000x128),
    TRef.binary main_call1.v4 main_call1.v3 main_call1.v5 Host.divf,
    TRef.binary (.of main_v28) main_call1.v5 main_call1.v6 mulf ]

/-- The whole line. -/
abbrev ops : List (HloOp τ sig (Elt F)) := opsA ++ (opsB ++ (opsC1 ++ (opsC2 ++ (opsD ++ opsE))))

set_option maxRecDepth 4096 in
/-- @main is that line: the outlined functions unfolded at their calls, sequencing reassociated. -/
theorem main_eq (c : Dev nD) : main (F := F) c = seq ops := by
  simp only [main, fn_std.body, fn_var.body, fn_where.body, fn_silu.body, ops, opsA, opsB, opsC1, opsC2, opsD, opsE,
    List.cons_append, List.nil_append, seq, bind_assoc, pure_bind]

/-! ## What each stretch leaves, from any contents it starts with -/

/-- Two stretches run one after the other. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A leaves the neighbours' mean features, -/
theorem A_v9 (W : Valuation τ sig (Elt F)) :
    after opsA W (Proc.devRef .tc main_v9) = aggV (nbrOf (W (Proc.devRef .tc main_arg0)) (W (Proc.devRef .tc main_arg2))) := by
  unfold aggV nbrOf normIdx
  after_results

/-- B the relative positions, their mean, and the zero degrees of freedom, -/
theorem B_v19 (W : Valuation τ sig (Elt F)) :
    after opsB W (Proc.devRef .tc main_v19) = relV (W (Proc.devRef .tc main_arg1)) (nbrcOf (W (Proc.devRef .tc main_arg1)) (W (Proc.devRef .tc main_arg2))) := by
  unfold relV nbrcOf normIdx
  after_results

theorem B_v22 (W : Valuation τ sig (Elt F)) :
    after opsB W (Proc.devRef .tc main_v22) = meanV (relV (W (Proc.devRef .tc main_arg1)) (nbrcOf (W (Proc.devRef .tc main_arg1)) (W (Proc.devRef .tc main_arg2)))) := by
  unfold meanV relV nbrcOf normIdx
  after_results

theorem B_c_6 (W : Valuation τ sig (Elt F)) : after opsB W (Proc.devRef .tc main_c_6) = constantI S_ 32 0#32 := by
  after_results

set_option maxHeartbeats 1000000 in
/-- C1 the centred squares of what it finds in the relative positions' buffer, -/
theorem C1_v6 (W : Valuation τ sig (Elt F)) :
    after opsC1 W (Proc.devRef .tc main_call0_call0_v6) = sqV (W (Proc.devRef .tc main_v19)) := by
  unfold sqV devV
  after_results
  simp only [TRef.ofBuf, TRef.toBuf, cast_eq]

set_option maxHeartbeats 1000000 in
/-- C2 the standard deviation from the squares and the degrees of freedom it finds, -/
theorem C2_v23 (W : Valuation τ sig (Elt F)) :
    after opsC2 W (Proc.devRef .tc main_v23) = stdFrom (W (Proc.devRef .tc main_call0_call0_v6)) (W (Proc.devRef .tc main_c_6)) := by
  unfold stdFrom countV
  after_results
  simp only [TRef.ofBuf, TRef.toBuf, cast_eq]

/-- D the dense layer over the four pieces it finds, -/
theorem D_v28 (W : Valuation τ sig (Elt F)) :
    after opsD W (Proc.devRef .tc main_v28) = linV (W (Proc.devRef .tc main_arg0)) (W (Proc.devRef .tc main_v9)) (W (Proc.devRef .tc main_v22)) (W (Proc.devRef .tc main_v23))
      (W (Proc.devRef .tc main_arg3)) (W (Proc.devRef .tc main_arg4)) := by
  unfold linV
  after_results
  rfl

/-- E SiLU of what it finds. -/
theorem E_v29 (W : Valuation τ sig (Elt F)) : after opsE W (Proc.devRef .tc main_v29) = siluV (W (Proc.devRef .tc main_v28)) := by
  unfold siluV
  after_results
  simp only [TRef.ofBuf, TRef.toBuf, cast_eq]

/-! ## What each stretch passes through -/

theorem A_keeps_arg0 (W : Valuation τ sig (Elt F)) : after opsA W (Proc.devRef .tc main_arg0) = W (Proc.devRef .tc main_arg0) := by after_results
theorem A_keeps_arg1 (W : Valuation τ sig (Elt F)) : after opsA W (Proc.devRef .tc main_arg1) = W (Proc.devRef .tc main_arg1) := by after_results
theorem A_keeps_arg2 (W : Valuation τ sig (Elt F)) : after opsA W (Proc.devRef .tc main_arg2) = W (Proc.devRef .tc main_arg2) := by after_results
theorem A_keeps_arg3 (W : Valuation τ sig (Elt F)) : after opsA W (Proc.devRef .tc main_arg3) = W (Proc.devRef .tc main_arg3) := by after_results
theorem A_keeps_arg4 (W : Valuation τ sig (Elt F)) : after opsA W (Proc.devRef .tc main_arg4) = W (Proc.devRef .tc main_arg4) := by after_results
theorem B_keeps_arg0 (W : Valuation τ sig (Elt F)) : after opsB W (Proc.devRef .tc main_arg0) = W (Proc.devRef .tc main_arg0) := by after_results
theorem B_keeps_arg1 (W : Valuation τ sig (Elt F)) : after opsB W (Proc.devRef .tc main_arg1) = W (Proc.devRef .tc main_arg1) := by after_results
theorem B_keeps_arg2 (W : Valuation τ sig (Elt F)) : after opsB W (Proc.devRef .tc main_arg2) = W (Proc.devRef .tc main_arg2) := by after_results
theorem B_keeps_arg3 (W : Valuation τ sig (Elt F)) : after opsB W (Proc.devRef .tc main_arg3) = W (Proc.devRef .tc main_arg3) := by after_results
theorem B_keeps_arg4 (W : Valuation τ sig (Elt F)) : after opsB W (Proc.devRef .tc main_arg4) = W (Proc.devRef .tc main_arg4) := by after_results
theorem B_keeps_v9 (W : Valuation τ sig (Elt F)) : after opsB W (Proc.devRef .tc main_v9) = W (Proc.devRef .tc main_v9) := by after_results
theorem C1_keeps_arg0 (W : Valuation τ sig (Elt F)) : after opsC1 W (Proc.devRef .tc main_arg0) = W (Proc.devRef .tc main_arg0) := by after_results
theorem C1_keeps_arg1 (W : Valuation τ sig (Elt F)) : after opsC1 W (Proc.devRef .tc main_arg1) = W (Proc.devRef .tc main_arg1) := by after_results
theorem C1_keeps_arg2 (W : Valuation τ sig (Elt F)) : after opsC1 W (Proc.devRef .tc main_arg2) = W (Proc.devRef .tc main_arg2) := by after_results
theorem C1_keeps_arg3 (W : Valuation τ sig (Elt F)) : after opsC1 W (Proc.devRef .tc main_arg3) = W (Proc.devRef .tc main_arg3) := by after_results
theorem C1_keeps_arg4 (W : Valuation τ sig (Elt F)) : after opsC1 W (Proc.devRef .tc main_arg4) = W (Proc.devRef .tc main_arg4) := by after_results
theorem C1_keeps_v9 (W : Valuation τ sig (Elt F)) : after opsC1 W (Proc.devRef .tc main_v9) = W (Proc.devRef .tc main_v9) := by after_results
theorem C1_keeps_v22 (W : Valuation τ sig (Elt F)) : after opsC1 W (Proc.devRef .tc main_v22) = W (Proc.devRef .tc main_v22) := by after_results
theorem C1_keeps_c_6 (W : Valuation τ sig (Elt F)) : after opsC1 W (Proc.devRef .tc main_c_6) = W (Proc.devRef .tc main_c_6) := by after_results
theorem C2_keeps_arg0 (W : Valuation τ sig (Elt F)) : after opsC2 W (Proc.devRef .tc main_arg0) = W (Proc.devRef .tc main_arg0) := by after_results
theorem C2_keeps_arg1 (W : Valuation τ sig (Elt F)) : after opsC2 W (Proc.devRef .tc main_arg1) = W (Proc.devRef .tc main_arg1) := by after_results
theorem C2_keeps_arg2 (W : Valuation τ sig (Elt F)) : after opsC2 W (Proc.devRef .tc main_arg2) = W (Proc.devRef .tc main_arg2) := by after_results
theorem C2_keeps_arg3 (W : Valuation τ sig (Elt F)) : after opsC2 W (Proc.devRef .tc main_arg3) = W (Proc.devRef .tc main_arg3) := by after_results
theorem C2_keeps_arg4 (W : Valuation τ sig (Elt F)) : after opsC2 W (Proc.devRef .tc main_arg4) = W (Proc.devRef .tc main_arg4) := by after_results
theorem C2_keeps_v9 (W : Valuation τ sig (Elt F)) : after opsC2 W (Proc.devRef .tc main_v9) = W (Proc.devRef .tc main_v9) := by after_results
theorem C2_keeps_v22 (W : Valuation τ sig (Elt F)) : after opsC2 W (Proc.devRef .tc main_v22) = W (Proc.devRef .tc main_v22) := by after_results
theorem D_keeps_arg0 (W : Valuation τ sig (Elt F)) : after opsD W (Proc.devRef .tc main_arg0) = W (Proc.devRef .tc main_arg0) := by after_results
theorem D_keeps_arg1 (W : Valuation τ sig (Elt F)) : after opsD W (Proc.devRef .tc main_arg1) = W (Proc.devRef .tc main_arg1) := by after_results
theorem D_keeps_arg2 (W : Valuation τ sig (Elt F)) : after opsD W (Proc.devRef .tc main_arg2) = W (Proc.devRef .tc main_arg2) := by after_results
theorem D_keeps_arg3 (W : Valuation τ sig (Elt F)) : after opsD W (Proc.devRef .tc main_arg3) = W (Proc.devRef .tc main_arg3) := by after_results
theorem D_keeps_arg4 (W : Valuation τ sig (Elt F)) : after opsD W (Proc.devRef .tc main_arg4) = W (Proc.devRef .tc main_arg4) := by after_results
theorem E_keeps_arg0 (W : Valuation τ sig (Elt F)) : after opsE W (Proc.devRef .tc main_arg0) = W (Proc.devRef .tc main_arg0) := by after_results
theorem E_keeps_arg1 (W : Valuation τ sig (Elt F)) : after opsE W (Proc.devRef .tc main_arg1) = W (Proc.devRef .tc main_arg1) := by after_results
theorem E_keeps_arg2 (W : Valuation τ sig (Elt F)) : after opsE W (Proc.devRef .tc main_arg2) = W (Proc.devRef .tc main_arg2) := by after_results
theorem E_keeps_arg3 (W : Valuation τ sig (Elt F)) : after opsE W (Proc.devRef .tc main_arg3) = W (Proc.devRef .tc main_arg3) := by after_results
theorem E_keeps_arg4 (W : Valuation τ sig (Elt F)) : after opsE W (Proc.devRef .tc main_arg4) = W (Proc.devRef .tc main_arg4) := by after_results

/-! ## The whole line -/

/-- The result buffer after the whole line is refOut of the argument buffers' contents: the five readings chained,
    each stretch's inputs traced back through the stretches before it. -/
theorem result_eq (V : Valuation τ sig (Elt F)) :
    after ops V (Proc.devRef .tc main_v29) = refOut (V (Proc.devRef .tc main_arg0)) (V (Proc.devRef .tc main_arg1)) (V (Proc.devRef .tc main_arg2)) (V (Proc.devRef .tc main_arg3)) (V (Proc.devRef .tc main_arg4)) := by
  show after (opsA ++ (opsB ++ (opsC1 ++ (opsC2 ++ (opsD ++ opsE))))) V _ = _
  unfold refOut stdV
  rw [after_app, after_app, after_app, after_app, after_app, E_v29, D_v28,
    C2_v23, C2_keeps_arg0, C2_keeps_v9, C2_keeps_v22, C2_keeps_arg3, C2_keeps_arg4,
    C1_v6, C1_keeps_c_6, C1_keeps_arg0, C1_keeps_v9, C1_keeps_v22, C1_keeps_arg3, C1_keeps_arg4,
    B_v19, B_c_6, B_v22, B_keeps_arg0, B_keeps_v9, B_keeps_arg3, B_keeps_arg4,
    A_v9, A_keeps_arg0, A_keeps_arg1, A_keeps_arg2, A_keeps_arg3, A_keeps_arg4]

theorem arg0_kept (V : Valuation τ sig (Elt F)) : after ops V (Proc.devRef .tc main_arg0) = V (Proc.devRef .tc main_arg0) := by
  show after (opsA ++ (opsB ++ (opsC1 ++ (opsC2 ++ (opsD ++ opsE))))) V _ = _
  rw [after_app, after_app, after_app, after_app, after_app, E_keeps_arg0, D_keeps_arg0, C2_keeps_arg0, C1_keeps_arg0, B_keeps_arg0, A_keeps_arg0]
theorem arg1_kept (V : Valuation τ sig (Elt F)) : after ops V (Proc.devRef .tc main_arg1) = V (Proc.devRef .tc main_arg1) := by
  show after (opsA ++ (opsB ++ (opsC1 ++ (opsC2 ++ (opsD ++ opsE))))) V _ = _
  rw [after_app, after_app, after_app, after_app, after_app, E_keeps_arg1, D_keeps_arg1, C2_keeps_arg1, C1_keeps_arg1, B_keeps_arg1, A_keeps_arg1]
theorem arg2_kept (V : Valuation τ sig (Elt F)) : after ops V (Proc.devRef .tc main_arg2) = V (Proc.devRef .tc main_arg2) := by
  show after (opsA ++ (opsB ++ (opsC1 ++ (opsC2 ++ (opsD ++ opsE))))) V _ = _
  rw [after_app, after_app, after_app, after_app, after_app, E_keeps_arg2, D_keeps_arg2, C2_keeps_arg2, C1_keeps_arg2, B_keeps_arg2, A_keeps_arg2]
theorem arg3_kept (V : Valuation τ sig (Elt F)) : after ops V (Proc.devRef .tc main_arg3) = V (Proc.devRef .tc main_arg3) := by
  show after (opsA ++ (opsB ++ (opsC1 ++ (opsC2 ++ (opsD ++ opsE))))) V _ = _
  rw [after_app, after_app, after_app, after_app, after_app, E_keeps_arg3, D_keeps_arg3, C2_keeps_arg3, C1_keeps_arg3, B_keeps_arg3, A_keeps_arg3]
theorem arg4_kept (V : Valuation τ sig (Elt F)) : after ops V (Proc.devRef .tc main_arg4) = V (Proc.devRef .tc main_arg4) := by
  show after (opsA ++ (opsB ++ (opsC1 ++ (opsC2 ++ (opsD ++ opsE))))) V _ = _
  rw [after_app, after_app, after_app, after_app, after_app, E_keeps_arg4, D_keeps_arg4, C2_keeps_arg4, C1_keeps_arg4, B_keeps_arg4, A_keeps_arg4]

/-! ## The side conditions of the run -/

theorem forall_app {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

theorem mem_app_elim {α : Type} {p : α → Prop} {l₁ l₂ : List α} (h₁ : ∀ x ∈ l₁, p x) (h₂ : ∀ x ∈ l₂, p x) : ∀ x ∈ l₁ ++ l₂, p x :=
  fun x hx => (List.mem_append.mp hx).elim (h₁ x) (h₂ x)

theorem opsA_sub : (opsA : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., binary_bufs_sub .., nullary_bufs_sub .., unary_bufs_sub .., binary_bufs_sub ..⟩
theorem opsA_fresh : ∀ op ∈ (opsA : List (HloOp τ sig (Elt F))), op.fresh = ∅ := by
  intro _ h; (repeat (cases h with | head => rfl | tail _ h => ?_)); exact nomatch h
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub ..⟩
theorem opsB_fresh : ∀ op ∈ (opsB : List (HloOp τ sig (Elt F))), op.fresh = ∅ := by
  intro _ h; (repeat (cases h with | head => rfl | tail _ h => ?_)); exact nomatch h
theorem opsC1_sub : (opsC1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub ..⟩
theorem opsC1_fresh : ∀ op ∈ (opsC1 : List (HloOp τ sig (Elt F))), op.fresh = ∅ := by
  intro _ h; (repeat (cases h with | head => rfl | tail _ h => ?_)); exact nomatch h
theorem opsC2_sub : (opsC2 : List (HloOp τ sig (Elt F))).Forall fun op => op.bufs ⊆ tcRefs τ sig :=
  ⟨unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub ..⟩
theorem opsC2_fresh : ∀ op ∈ (opsC2 : List (HloOp τ sig (Elt F))), op.fresh = ∅ := by
  intro _ h; (repeat (cases h with | head => rfl | tail _ h => ?_)); exact nomatch h
theorem opsD_sub : (opsD : List (HloOp τ sig (Elt F))).Forall fun op => op.bufs ⊆ tcRefs τ sig :=
  ⟨nary_bufs_sub .., binary_bufs_sub .., unary_bufs_sub .., unary_bufs_sub .., binary_bufs_sub ..⟩
theorem opsD_fresh : ∀ op ∈ (opsD : List (HloOp τ sig (Elt F))), op.fresh = ∅ := by
  intro _ h; (repeat (cases h with | head => rfl | tail _ h => ?_)); exact nomatch h
theorem opsE_sub : (opsE : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., binary_bufs_sub ..⟩
theorem opsE_fresh : ∀ op ∈ (opsE : List (HloOp τ sig (Elt F))), op.fresh = ∅ := by
  intro _ h; (repeat (cases h with | head => rfl | tail _ h => ?_)); exact nomatch h

theorem ops_sub : (ops : List (HloOp τ sig (Elt F))).Forall fun op => op.bufs ⊆ tcRefs τ sig :=
  forall_app opsA_sub (forall_app opsB_sub (forall_app opsC1_sub (forall_app opsC2_sub (forall_app opsD_sub opsE_sub))))

theorem ops_fresh : ∀ op ∈ (ops : List (HloOp τ sig (Elt F))), op.fresh = ∅ :=
  mem_app_elim opsA_fresh (mem_app_elim opsB_fresh (mem_app_elim opsC1_fresh (mem_app_elim opsC2_fresh (mem_app_elim opsD_fresh opsE_fresh))))

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of the
    reference terminates with its result at refOut of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v29).trans (result_eq _),
      (h c main_arg0).trans (arg0_kept _), (h c main_arg1).trans (arg1_kept _), (h c main_arg2).trans (arg2_kept _),
      (h c main_arg3).trans (arg3_kept _), (h c main_arg4).trans (arg4_kept _)⟩)
    (run_seq scopedRefs_eq scopedSems_eq defs main (fun _ => ops) main_eq (fun _ => ops_sub) m ρ (fun _ => ops_fresh))

end Cert.ReferenceIdeal.HandRun

end
-- ==== Proof.RefSpec.lean ====
/-
  The reference's result, index by index, at the extended reals.

  Proof/RefRun.lean names the reference's result as refOut of its arguments, a composition of whole-array stages.
  Here each stage is read at an index, and the result at (r, c) is the layer of Proof/Spec.lean at row r, column c,
  of the whole arrays (refOut_apply), with the neighbours' rows those the gathers fetch. The host's sums are the
  initial value 0 plus the sum over the sixteen neighbours; its divisions are the quotient on the extended reals; the
  variance's divisor, sixteen less zero degrees of freedom, is sixteen, and the guard "the count is positive" holds, so
  the quiet-NaN branch is never read; SiLU's quotient 1 / (1 + exp (-x)) is the logistic function by its definition.
-/
import proofs.«149083_j63943473103526_1_alg».proof.Proof.RefRun
import proofs.«149083_j63943473103526_1_alg».proof.Proof.Spec

noncomputable section

namespace Cert.ReferenceIdeal.RefValue

open Cert.ReferenceIdeal Cert.ReferenceIdeal.Gen Cert.ReferenceIdeal.HandRun Idealize.ShloMosaic Idealize.ShloMosaic.ValueIdx Cert.GraphConv

/-! ## Layout operations and sums at an index -/

/-- A scalar spread over a shape reads the scalar everywhere. -/
theorem spread_apply {α : Type} {s : Shape} (h : S_.BroadcastsInDim s (![] : Fin 0 → Fin s.rank)) (x : S_.Idx → α) (j : s.Idx) :
    broadcastInDim s ![] h x j = x ix0 :=
  broadcastInDim_apply _ h x j ix0 fun a => a.elim0

/-- A [100000, 1, 3] array repeated sixteen times along its middle axis. -/
theorem repeat16_apply {α : Type} (y : S100000x1x3.Idx → α) (r : Fin 100000) (k : Fin 16) (d : Fin 3) :
    broadcastInDim S100000x16x3 ![0, 1, 2] bcast_S100000x1x3_S100000x16x3_0_1_2 y (ix3 r k d) = y (ix3 r (0 : Fin 1) d) :=
  broadcastInDim_apply _ _ y (ix3 r k d) (ix3 r (0 : Fin 1) d) fun a => by
    match a with
    | ⟨0, _⟩ => rfl
    | ⟨1, _⟩ => rfl
    | ⟨2, _⟩ => rfl

/-- A [100000, 3] array given a unit middle axis. -/
theorem unitMid_apply {α : Type} (x : S100000x3.Idx → α) (r : Fin 100000) (d : Fin 3) :
    broadcastInDim S100000x1x3 ![0, 2] bcast_S100000x3_S100000x1x3_0_2 x (ix3 r (0 : Fin 1) d) = x (ix2 r d) :=
  broadcastInDim_apply _ _ x (ix3 r (0 : Fin 1) d) (ix2 r d) fun a => by
    match a with
    | ⟨0, _⟩ => rfl
    | ⟨1, _⟩ => rfl

theorem red64 : S100000x16x64.Reduces [1] S100000x64 := by decide
theorem red3 : S100000x16x3.Reduces [1] S100000x3 := by decide

/-- The host's sum over the sixteen neighbours from the initial value 0, 64 columns. -/
theorem hsum64 (x : (⟨S100000x16x64, .f32⟩ : BufTy).Contents (Elt Ideal)) (r : Fin 100000) (c : Fin 64) :
    Host.reduceAdd x (constant (F := Ideal) S_ .f32 0x00000000#32) reducesTo_S100000x16x64_S100000x64_d1 h_S_ (ix2 r c)
      = ∑ k : Fin 16, x (ix3 r k c) := by
  refine (Ideal.hostReduceAdd_single reducesTo_S100000x16x64_S100000x64_d1 red64 x _ (ix2 r c)).trans ?_
  refine (congrArg (· + _) Ideal.ofBits_zero_f32).trans ((zero_add _).trans ?_)
  exact Finset.sum_congr rfl fun k _ => congrArg x (lift_mid red64 r c k)

/-- The same, 3 columns. -/
theorem hsum3 (x : (⟨S100000x16x3, .f32⟩ : BufTy).Contents (Elt Ideal)) (r : Fin 100000) (d : Fin 3) :
    Host.reduceAdd x (constant (F := Ideal) S_ .f32 0x00000000#32) reducesTo_S100000x16x3_S100000x3_d1 h_S_ (ix2 r d)
      = ∑ k : Fin 16, x (ix3 r k d) := by
  refine (Ideal.hostReduceAdd_single reducesTo_S100000x16x3_S100000x3_d1 red3 x _ (ix2 r d)).trans ?_
  refine (congrArg (· + _) Ideal.ofBits_zero_f32).trans ((zero_add _).trans ?_)
  exact Finset.sum_congr rfl fun k _ => congrArg x (lift_mid red3 r d k)

/-! ## The stages at an index -/

theorem aggV_apply (nbr : (⟨S100000x16x64, .f32⟩ : BufTy).Contents (Elt Ideal)) (r : Fin 100000) (c : Fin 64) :
    aggV (F := Ideal) nbr (ix2 r c) = agg (R := 100000) nbr r c := by
  unfold aggV agg
  show Ideal.div (Host.reduceAdd nbr (constant (F := Ideal) S_ .f32 0x00000000#32) reducesTo_S100000x16x64_S100000x64_d1 h_S_ (ix2 r c))
    (broadcastInDim S100000x64 ![] bcast_S_S100000x64 (constant (F := Ideal) S_ .f32 0x41800000#32) (ix2 r c)) = _
  rw [hsum64, spread_apply]
  rfl

theorem relV_apply (coords : (⟨S100000x3, .f32⟩ : BufTy).Contents (Elt Ideal)) (nbrc : (⟨S100000x16x3, .f32⟩ : BufTy).Contents (Elt Ideal)) (r : Fin 100000) (k : Fin 16) (d : Fin 3) :
    relV (F := Ideal) coords nbrc (ix3 r k d) = rel (R := 100000) coords nbrc r k d := by
  unfold relV rel
  exact congrArg (fun s => nbrc (ix3 r k d) - s) ((repeat16_apply _ r k d).trans (unitMid_apply coords r d))

theorem meanV_apply (rl : (⟨S100000x16x3, .f32⟩ : BufTy).Contents (Elt Ideal)) (r : Fin 100000) (d : Fin 3) :
    meanV (F := Ideal) rl (ix2 r d) = Ideal.div (∑ k : Fin 16, rl (ix3 r k d)) sixteen := by
  unfold meanV
  show Ideal.div (Host.reduceAdd rl (constant (F := Ideal) S_ .f32 0x00000000#32) reducesTo_S100000x16x3_S100000x3_d1 h_S_ (ix2 r d))
    (broadcastInDim S100000x3 ![] bcast_S_S100000x3 (constant (F := Ideal) S_ .f32 0x41800000#32) (ix2 r d)) = _
  rw [hsum3, spread_apply]
  rfl

theorem devV_apply (rl : (⟨S100000x16x3, .f32⟩ : BufTy).Contents (Elt Ideal)) (r : Fin 100000) (k : Fin 16) (d : Fin 3) :
    devV (F := Ideal) rl (ix3 r k d) = rl (ix3 r k d) - Ideal.div (∑ k' : Fin 16, rl (ix3 r k' d)) sixteen := by
  unfold devV
  refine congrArg (fun s => rl (ix3 r k d) - s) ((repeat16_apply _ r k d).trans ?_)
  show Ideal.div (broadcastInDim S100000x1x3 ![0, 2] bcast_S100000x3_S100000x1x3_0_2
      (Host.reduceAdd rl (constant (F := Ideal) S_ .f32 0x00000000#32) reducesTo_S100000x16x3_S100000x3_d1 h_S_) (ix3 r (0 : Fin 1) d))
    (broadcastInDim S100000x1x3 ![] bcast_S_S100000x1x3 (constant (F := Ideal) S_ .f32 0x41800000#32) (ix3 r (0 : Fin 1) d)) = _
  rw [unitMid_apply, hsum3, spread_apply]
  rfl

/-- Sixteen less zero degrees of freedom is sixteen. -/
theorem count_zero : countV (F := Ideal) (constantI S_ 32 0#32) ix0 = sixteen := by
  unfold countV
  show Ideal.ofBits .f32 0x41800000#32 - (((0#32 : BitVec 32).toInt : ℝ) : EReal) = sixteen
  simp

/-- The count is positive. -/
theorem guard_pos : Ideal.cmp .ogt sixteen (Ideal.ofBits .f32 0x00000000#32) = 1#1 := by
  unfold Ideal.cmp
  rw [Ideal.ofBits_zero_f32, show sixteen = ((16 : ℝ) : EReal) from ofBits_sixteen]
  have h : (0 : EReal) < ((16 : ℝ) : EReal) := by exact_mod_cast (by norm_num : (0 : ℝ) < 16)
  simp [h]

theorem stdFrom_apply (sq : (⟨S100000x16x3, .f32⟩ : BufTy).Contents (Elt Ideal)) (r : Fin 100000) (d : Fin 3) :
    stdFrom (F := Ideal) sq (constantI S_ 32 0#32) (ix2 r d) = Ideal.sqrt (Ideal.div (∑ k : Fin 16, sq (ix3 r k d)) sixteen) := by
  unfold stdFrom
  show Ideal.sqrt (Scalar.select
      (broadcastInDim S100000x3 ![] bcast_S_S100000x3 (cmpf (F := Ideal) .ogt (countV (F := Ideal) (constantI S_ 32 0#32)) (constant (F := Ideal) S_ .f32 0x00000000#32)) (ix2 r d))
      (Ideal.div (Host.reduceAdd sq (constant (F := Ideal) S_ .f32 0x00000000#32) reducesTo_S100000x16x3_S100000x3_d1 h_S_ (ix2 r d))
        (broadcastInDim S100000x3 ![] bcast_S_S100000x3 (countV (F := Ideal) (constantI S_ 32 0#32)) (ix2 r d)))
      (broadcastInDim S100000x3 ![] bcast_S_S100000x3 (id (constant (F := Ideal) S_ .f32 0x7FC00000#32)) (ix2 r d))) = _
  rw [hsum3, spread_apply, spread_apply, count_zero]
  show Ideal.sqrt (Scalar.select (Ideal.cmp .ogt (countV (F := Ideal) (constantI S_ 32 0#32) ix0) (Ideal.ofBits .f32 0x00000000#32)) _ _) = _
  rw [count_zero, guard_pos, select_one]

/-! ## The matrix product at an index -/

theorem lhs_0 (i : S100000x128.Idx) (q : dot_S100000x134_S134x128_S100000x128_1_0_0_1_n_n.contr.Idx) : (dot_S100000x134_S134x128_S100000x128_1_0_0_1_n_n.lhsIdx i q 0).val = (i 0).val := by
  unfold DotDims.lhsIdx
  rw [dif_neg (show ¬(0 : Fin S100000x134.rank) ∈ dot_S100000x134_S134x128_S100000x128_1_0_0_1_n_n.lhsBatch by decide), dif_pos (show (0 : Fin S100000x134.rank) ∈ dot_S100000x134_S134x128_S100000x128_1_0_0_1_n_n.lhsNonContracting by decide)]
  rfl
theorem lhs_1 (i : S100000x128.Idx) (q : dot_S100000x134_S134x128_S100000x128_1_0_0_1_n_n.contr.Idx) : (dot_S100000x134_S134x128_S100000x128_1_0_0_1_n_n.lhsIdx i q 1).val = (q ⟨0, by decide⟩).val :=
  dot_S100000x134_S134x128_S100000x128_1_0_0_1_n_n.lhsIdx_val_of_single rfl i q
theorem rhs_0 (i : S100000x128.Idx) (q : dot_S100000x134_S134x128_S100000x128_1_0_0_1_n_n.contr.Idx) : (dot_S100000x134_S134x128_S100000x128_1_0_0_1_n_n.rhsIdx i q 0).val = (q ⟨0, by decide⟩).val :=
  dot_S100000x134_S134x128_S100000x128_1_0_0_1_n_n.rhsIdx_val_of_single rfl i q
theorem rhs_1 (i : S100000x128.Idx) (q : dot_S100000x134_S134x128_S100000x128_1_0_0_1_n_n.contr.Idx) : (dot_S100000x134_S134x128_S100000x128_1_0_0_1_n_n.rhsIdx i q 1).val = (i 1).val := by
  unfold DotDims.rhsIdx
  rw [dif_neg (show ¬(1 : Fin S134x128.rank) ∈ dot_S100000x134_S134x128_S100000x128_1_0_0_1_n_n.rhsBatch by decide), dif_pos (show (1 : Fin S134x128.rank) ∈ dot_S100000x134_S134x128_S100000x128_1_0_0_1_n_n.rhsNonContracting by decide)]
  rfl

/-- The host's product of the 100000 x 134 rows with the 134 x 128 weights, at (r, c): the sum over the 134 shared
    positions. -/
theorem dot_rows (l : FVec Ideal S100000x134 .f32) (w : FVec Ideal S134x128 .f32) (r : Fin 100000) (c : Fin 128) :
    Host.dotGeneral dot_S100000x134_S134x128_S100000x128_1_0_0_1_n_n none l w (ix2 r c) = ∑ j : Fin 134, l (ix2 r j) * w (ix2 j c) := by
  refine (Ideal.dotGeneral_apply dot_S100000x134_S134x128_S100000x128_1_0_0_1_n_n none .single l w (ix2 r c)).trans ?_
  rw [← Equiv.sum_comp (contrEquiv1 dot_S100000x134_S134x128_S100000x128_1_0_0_1_n_n 134 rfl rfl).symm]
  refine Finset.sum_congr rfl fun k _ => ?_
  have hk := contrEquiv1_symm_val dot_S100000x134_S134x128_S100000x128_1_0_0_1_n_n 134 rfl rfl k
  have el : dot_S100000x134_S134x128_S100000x128_1_0_0_1_n_n.lhsIdx (ix2 r c) ((contrEquiv1 dot_S100000x134_S134x128_S100000x128_1_0_0_1_n_n 134 rfl rfl).symm k) = ix2 r k := funext fun a => Fin.ext (by
    match a with
    | ⟨0, _⟩ => exact lhs_0 _ _
    | ⟨1, _⟩ => exact (lhs_1 _ _).trans hk)
  have er : dot_S100000x134_S134x128_S100000x128_1_0_0_1_n_n.rhsIdx (ix2 r c) ((contrEquiv1 dot_S100000x134_S134x128_S100000x128_1_0_0_1_n_n 134 rfl rfl).symm k) = ix2 k c := funext fun a => Fin.ext (by
    match a with
    | ⟨0, _⟩ => exact (rhs_0 _ _).trans hk
    | ⟨1, _⟩ => exact rhs_1 _ _)
  rw [el, er]

/-- The bias row spread over the 100000 rows. -/
theorem bias_apply (b : (⟨S128, .f32⟩ : BufTy).Contents (Elt Ideal)) (r : Fin 100000) (c : Fin 128) :
    broadcastInDim S100000x128 ![0, 1] bcast_S1x128_S100000x128_0_1 (broadcastInDim S1x128 ![1] bcast_S128_S1x128_1 b) (ix2 r c) = b (ix1 c) :=
  (broadcastInDim_apply _ _ _ (ix2 r c) (ix2 (0 : Fin 1) c) fun a => by
    match a with
    | ⟨0, _⟩ => rfl
    | ⟨1, _⟩ => rfl).trans
  (broadcastInDim_apply _ _ b (ix2 (0 : Fin 1) c) (ix1 c) fun a => by
    match a with
    | ⟨0, _⟩ => rfl)

theorem linV_apply (feat a : (⟨S100000x64, .f32⟩ : BufTy).Contents (Elt Ideal)) (mn sd : (⟨S100000x3, .f32⟩ : BufTy).Contents (Elt Ideal))
    (W : (⟨S134x128, .f32⟩ : BufTy).Contents (Elt Ideal)) (b : (⟨S128, .f32⟩ : BufTy).Contents (Elt Ideal)) (r : Fin 100000) (c : Fin 128) :
    linV (F := Ideal) feat a mn sd W b (ix2 r c)
      = (∑ j : Fin 134, pick (fun q => feat (ix2 r q)) (fun q => a (ix2 r q)) (fun d => mn (ix2 r d)) (fun d => sd (ix2 r d)) j
          * W (ix2 j c)) + b (ix1 c) := by
  unfold linV
  show Host.dotGeneral (F := Ideal) dot_S100000x134_S134x128_S100000x128_1_0_0_1_n_n none
      (concatenate S100000x134 1 [⟨S100000x64, feat⟩, ⟨S100000x64, a⟩, ⟨S100000x3, mn⟩, ⟨S100000x3, sd⟩]
        concatenates_S100000x64_S100000x64_S100000x3_S100000x3_S100000x134_d1) W (ix2 r c)
    + broadcastInDim S100000x128 ![0, 1] bcast_S1x128_S100000x128_0_1 (broadcastInDim S1x128 ![1] bcast_S128_S1x128_1 b) (ix2 r c) = _
  rw [dot_rows, bias_apply]
  refine congrArg (· + b (ix1 c)) (Finset.sum_congr rfl fun j _ => ?_)
  exact congrArg (· * W (ix2 j c)) (concat4_apply feat a mn sd concatenates_S100000x64_S100000x64_S100000x3_S100000x3_S100000x134_d1 r j)

/-- SiLU as the reference spells it is x times the logistic function of x. -/
theorem siluV_apply (x : (⟨S100000x128, .f32⟩ : BufTy).Contents (Elt Ideal)) (i : S100000x128.Idx) :
    siluV (F := Ideal) x i = x i * Ideal.logistic (x i) := by
  unfold siluV Ideal.logistic
  show x i * Ideal.div (broadcastInDim S100000x128 ![] bcast_S_S100000x128 (constant (F := Ideal) S_ .f32 0x3F800000#32) i)
    (broadcastInDim S100000x128 ![] bcast_S_S100000x128 (constant (F := Ideal) S_ .f32 0x3F800000#32) i + Ideal.exp (-(x i))) = _
  rw [spread_apply]
  show x i * Ideal.div (Ideal.ofBits .f32 0x3F800000#32) (Ideal.ofBits .f32 0x3F800000#32 + Ideal.exp (-(x i))) = _
  rw [ofBits_one]

/-! ## The result at an index -/

/-- Entry (r, c) of the reference's result is the layer's output at row r, column c, of the whole arrays, the
    neighbours' rows those the two gathers fetch. -/
theorem refOut_apply (feat : (⟨S100000x64, .f32⟩ : BufTy).Contents (Elt Ideal)) (coords : (⟨S100000x3, .f32⟩ : BufTy).Contents (Elt Ideal)) (idx : (⟨S100000x16, .i32⟩ : BufTy).Contents (Elt Ideal))
    (W : (⟨S134x128, .f32⟩ : BufTy).Contents (Elt Ideal)) (b : (⟨S128, .f32⟩ : BufTy).Contents (Elt Ideal)) (r : Fin 100000) (c : Fin 128) :
    refOut (F := Ideal) feat coords idx W b (ix2 r c)
      = out (R := 100000) feat (nbrOf feat idx) coords (nbrcOf coords idx) W b r c := by
  unfold refOut
  rw [siluV_apply, linV_apply]
  unfold out lin mix
  have e1 : (fun q => aggV (F := Ideal) (nbrOf feat idx) (ix2 r q)) = agg (R := 100000) (nbrOf feat idx) r :=
    funext fun q => aggV_apply _ r q
  have e2 : (fun d => meanV (F := Ideal) (relV coords (nbrcOf coords idx)) (ix2 r d)) = relMean (R := 100000) coords (nbrcOf coords idx) r :=
    funext fun d => by rw [meanV_apply]; unfold relMean; simp only [relV_apply]
  have e3 : (fun d => stdV (F := Ideal) (relV coords (nbrcOf coords idx)) (constantI S_ 32 0#32) (ix2 r d)) = relStd (R := 100000) coords (nbrcOf coords idx) r :=
    funext fun d => by
      unfold stdV
      rw [stdFrom_apply]
      unfold relStd relMean sqV
      simp only [mulf_apply, devV_apply, relV_apply]
  rw [e1, e2, e3]

end Cert.ReferenceIdeal.RefValue

end
-- ==== Proof.lean ====
/-
  The certificate of one graph-convolution layer against its jnp reference.

  The layer, for each of 100000 nodes: the mean of the sixteen neighbours' 64 features; the mean and the population
  standard deviation of the sixteen neighbours' positions relative to the node; these laid beside the node's own
  features (134 entries); a dense layer of 128 outputs; SiLU (Proof/Spec.lean). Both programs gather the neighbours'
  rows on the host with the same operations. The kernel then works block by block, 400 nodes a grid point, and the
  reference on the whole arrays at once.

  Kernel side: at a grid point the stored block is the layer on the point's 400 rows (Proof/KernelPay.lean); a
  block's row is the array's row, the 250 blocks cover the array, so the result array is the layer on the whole
  arrays (Proof/KernelFinal.lean, over the generated frame run with its output array named). Reference side: the run
  of its sixty-nine host operations read back as one composed value (Proof/RefRun.lean), and that value read index by
  index is the same layer (Proof/RefSpec.lean). The two sums over neighbours, the two quotients by sixteen, the two
  matrix products and the two spellings of the logistic function are each one function on the extended reals, term
  by term, so no algebraic law beyond that identification is used and the precondition is not opened.

  The frames of the two kernel programs are the generated ones; the reference's frame is its run with the result
  dropped; the idealization rewrote no operation, so there is nothing to preserve.
-/
import proofs.«149083_j63943473103526_1_alg».proof.Defs
import proofs.«149083_j63943473103526_1_alg».proof.Proof.Gen.Kernel
import proofs.«149083_j63943473103526_1_alg».proof.Proof.Gen.Kernel.Skeleton
import proofs.«149083_j63943473103526_1_alg».proof.Proof.Gen.Kernel.Launch
import proofs.«149083_j63943473103526_1_alg».proof.Proof.Gen.Kernel.Points
import proofs.«149083_j63943473103526_1_alg».proof.Proof.Gen.Kernel.Frame
import proofs.«149083_j63943473103526_1_alg».proof.Proof.Gen.KernelIdeal
import proofs.«149083_j63943473103526_1_alg».proof.Proof.Gen.KernelIdeal.Skeleton
import proofs.«149083_j63943473103526_1_alg».proof.Proof.Gen.KernelIdeal.Launch
import proofs.«149083_j63943473103526_1_alg».proof.Proof.Gen.KernelIdeal.Points
import proofs.«149083_j63943473103526_1_alg».proof.Proof.Gen.KernelIdeal.Frame
import proofs.«149083_j63943473103526_1_alg».proof.Proof.Gen.KernelIdeal.Value
import proofs.«149083_j63943473103526_1_alg».proof.Proof.Gen.ReferenceIdeal
import proofs.«149083_j63943473103526_1_alg».proof.Proof.Gen.Pre_finite_inputs
import proofs.«149083_j63943473103526_1_alg».proof.Proof.KernelFinal
import proofs.«149083_j63943473103526_1_alg».proof.Proof.RefSpec
import Idealize.ShloMosaic.Adequacy
import Idealize.ShloMosaic.Init

noncomputable section

namespace Cert.Proof

open Idealize.ShloMosaic Idealize.SL.Sem

/-! ## The two programs gather the same rows -/

/-- The feature gather's dimension numbers are the same record in both programs. -/
theorem gather64_eq : Cert.KernelIdeal.gather_S100000x64_S100000x16x1_S100000x16x64_2_0_n_n_0_2_164
    = Cert.ReferenceIdeal.gather_S100000x64_S100000x16x1_S100000x16x64_2_0_n_n_0_2_164 := rfl

/-- The position gather's likewise. -/
theorem gather3_eq : Cert.KernelIdeal.gather_S100000x3_S100000x16x1_S100000x16x3_2_0_n_n_0_2_13
    = Cert.ReferenceIdeal.gather_S100000x3_S100000x16x1_S100000x16x3_2_0_n_n_0_2_13 := rfl

/-- And the indices are normalised by the same operations. -/
theorem normIdx_eq (idx : (⟨Cert.KernelIdeal.S100000x16, .i32⟩ : BufTy).Contents (Elt Ideal)) :
    Cert.KernelIdeal.Whole.normIdxK idx = Cert.ReferenceIdeal.HandRun.normIdx (F := Ideal) idx := rfl

/-- The kernel's whole result is the reference's composed value of the same arguments: index by index both are the
    layer's output at that row and column, over the same gathered rows. -/
theorem results_eq (m : (ℓ : Loc Cert.KernelIdeal.nD Cert.KernelIdeal.τ Cert.KernelIdeal.sig) → Buf (Elt Ideal) ℓ) (c : Dev Cert.KernelIdeal.nD) :
    Cert.ReferenceIdeal.HandRun.refOut (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) = Cert.KernelIdeal.Whole.wholeOut m c := by
  funext i
  obtain ⟨r, q, rfl⟩ : ∃ (r : Fin 100000) (q : Fin 128), i = ValueIdx.ix2 r q := ⟨i 0, i 1, ValueIdx.eq_ix2 i⟩
  rw [Cert.ReferenceIdeal.RefValue.refOut_apply]
  show _ = Cert.GraphConv.out (R := 100000) (Cert.KernelIdeal.Whole.featA m c) (Cert.KernelIdeal.Whole.nbrA m c)
    (Cert.KernelIdeal.Whole.coordsA m c) (Cert.KernelIdeal.Whole.nbrcA m c) (Cert.KernelIdeal.Whole.wA m c) (Cert.KernelIdeal.Whole.bA m c) r q
  rw [Cert.KernelIdeal.Whole.nbrA_eq, Cert.KernelIdeal.Whole.nbrcA_eq, gather64_eq, gather3_eq, normIdx_eq,
    show Cert.KernelIdeal.Whole.featA m c = m ((c.tc : Thread Cert.KernelIdeal.nD Cert.KernelIdeal.τ).loc Cert.KernelIdeal.main_arg0) from Cert.KernelIdeal.Gen.V_main_arg0 m c,
    show Cert.KernelIdeal.Whole.coordsA m c = m ((c.tc : Thread Cert.KernelIdeal.nD Cert.KernelIdeal.τ).loc Cert.KernelIdeal.main_arg1) from Cert.KernelIdeal.Gen.V_main_arg1 m c,
    show Cert.KernelIdeal.Whole.wA m c = m ((c.tc : Thread Cert.KernelIdeal.nD Cert.KernelIdeal.τ).loc Cert.KernelIdeal.main_arg3) from Cert.KernelIdeal.Gen.V_main_arg3 m c,
    show Cert.KernelIdeal.Whole.bA m c = m ((c.tc : Thread Cert.KernelIdeal.nD Cert.KernelIdeal.τ).loc Cert.KernelIdeal.main_arg4) from Cert.KernelIdeal.Gen.V_main_arg4 m c]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.HandRun.run (F := Ideal) m ρ)

/-- The idealization rewrote no operation. -/
theorem preserves : Cert.preserves_Kernel_KernelIdeal := trivial

/-- Both idealized programs end with the layer's output of the same arguments. -/
theorem algebraic : Cert.algebraic_KernelIdeal_ReferenceIdeal := by
  intro m ρ m' ρ' _ hagree
  refine ⟨fun c => Cert.KernelIdeal.Whole.wholeOut m c, Cert.KernelIdeal.Whole.run m ρ, ?_⟩
  refine (θ_run Cert.ReferenceIdeal.defs _ _).mono (fun _ h c => ⟨(h c).1.trans ?_, (h c).2⟩)
    (Cert.ReferenceIdeal.HandRun.run (F := Ideal) m' ρ')
  obtain ⟨a0, a1, a2, a3, a4⟩ := hagree c
  rw [a0, a1, a2, a3, a4]
  exact results_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
